-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x2048x1024 .f32) (main_arg1 : FVec F S3072x1024 .f32) (main_arg2 : FVec F S1024x1024 .f32) (main_arg3 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S1x256x1024 : Shape := ⟨3, ![1, 256, 1024]⟩
abbrev S256x1024 : Shape := ⟨2, ![256, 1024]⟩
abbrev S256x3072 : Shape := ⟨2, ![256, 3072]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 14
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S3072x1024, .bf16⟩
  | .hbm, ⟨5, _⟩ => ⟨S1024x1024, .bf16⟩
  | .hbm, ⟨6, _⟩ => ⟨S2x2048x1024, .bf16⟩
  | .hbm, ⟨7, _⟩ => ⟨S2x2048x1024, .bf16⟩
  | .hbm, ⟨8, _⟩ => ⟨S2x2048x1024, .bf16⟩
  | .hbm, ⟨9, _⟩ => ⟨S2x2048x1024, .bf16⟩
  | .hbm, ⟨10, _⟩ => ⟨S4096x1024, .bf16⟩
  | .hbm, ⟨11, _⟩ => ⟨S1x1024, .f32⟩
  | .hbm, ⟨12, _⟩ => ⟨S4096x1024, .f32⟩
  | .hbm, ⟨13, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S3072x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x512x128, .bf16⟩
  | .local _ .vmem, ⟨10, _⟩ => ⟨S1x512x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x512x128, .bf16⟩
  | .local _ .vmem, ⟨16, _⟩ => ⟨S1x512x128, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S512x128_o0_64_S512x64 : S512x128.Slices ![0, 64] S512x64
  slices_S2048x128_o0_0_S2048x64 : S2048x128.Slices ![0, 0] S2048x64
  slices_S2048x128_o0_64_S2048x64 : S2048x128.Slices ![0, 64] S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  shapeCasts_S2x2048x1024_S4096x1024 : S2x2048x1024.ShapeCasts S4096x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S256x1024_S3072x1024_S256x3072_1_1_0_0_n_n_wf : DotDims.WF S256x1024 S3072x1024 S256x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S2x2048x1024.size a
  hwx0_0 : ∀ i : grid0.Coords, EltTy.bits .f32 = 32 ∨ (Rect.block (s := S2x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S2x2048x1024.size a
  hwx0_2 : ∀ i : grid0.Coords, EltTy.bits .bf16 = 32 ∨ (Rect.block (s := S2x2048x1024) S1x256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S2x2048x1024.size a
  hwx0_3 : ∀ i : grid0.Coords, EltTy.bits .bf16 = 32 ∨ (Rect.block (s := S2x2048x1024) S1x256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S2x2048x1024.size a
  hwx0_4 : ∀ i : grid0.Coords, EltTy.bits .bf16 = 32 ∨ (Rect.block (s := S2x2048x1024) S1x256x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x1024.size a
  hwx1_0 : ∀ i : grid1.Coords, EltTy.bits .bf16 = 32 ∨ (Rect.block (s := S2x2048x1024) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x1024.size a
  hwx1_1 : ∀ i : grid1.Coords, EltTy.bits .bf16 = 32 ∨ (Rect.block (s := S2x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x1024.size a
  hwx1_2 : ∀ i : grid1.Coords, EltTy.bits .bf16 = 32 ∨ (Rect.block (s := S2x2048x1024) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S2x2048x1024.size a
  hwx1_3 : ∀ i : grid1.Coords, EltTy.bits .bf16 = 32 ∨ (Rect.block (s := S2x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S2x2048x3072 : Shape := ⟨3, ![2, 2048, 3072]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S2x2048x3072, .f32⟩
  | .hbm, ⟨5, _⟩ => ⟨S2x2048x3x16x64, .f32⟩
  | .hbm, ⟨6, _⟩ => ⟨S2x2048x1x16x64, .f32⟩
  | .hbm, ⟨7, _⟩ => ⟨S2x2048x16x64, .f32⟩
  | .hbm, ⟨8, _⟩ => ⟨S2x16x2048x64, .f32⟩
  | .hbm, ⟨9, _⟩ => ⟨S2x2048x1x16x64, .f32⟩
  | .hbm, ⟨10, _⟩ => ⟨S2x2048x16x64, .f32⟩
  | .hbm, ⟨11, _⟩ => ⟨S2x16x2048x64, .f32⟩
  | .hbm, ⟨12, _⟩ => ⟨S2x2048x1x16x64, .f32⟩
  | .hbm, ⟨13, _⟩ => ⟨S2x2048x16x64, .f32⟩
  | .hbm, ⟨14, _⟩ => ⟨S2x16x2048x64, .f32⟩
  | .hbm, ⟨15, _⟩ => ⟨S2x16x2048x2048, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S_, .f32⟩
  | .hbm, ⟨22, _⟩ => ⟨S2x16x2048, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x64, .f32⟩
  | .hbm, ⟨34, _⟩ => ⟨S2x2048x16x64, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  shapeCasts_S2x2048x3072_S2x2048x3x16x64 : S2x2048x3072.ShapeCasts S2x2048x3x16x64
  slices_S2x2048x3x16x64_S2x2048x1x16x64_0_0_0_0_0 : S2x2048x3x16x64.Slices ![0, 0, 0, 0, 0] S2x2048x1x16x64
  shapeCasts_S2x2048x1x16x64_S2x2048x16x64 : S2x2048x1x16x64.ShapeCasts S2x2048x16x64
  transposes_S2x2048x16x64_S2x16x2048x64_0_2_1_3 : S2x2048x16x64.Transposes [0, 2, 1, 3] S2x16x2048x64
  slices_S2x2048x3x16x64_S2x2048x1x16x64_0_0_1_0_0 : S2x2048x3x16x64.Slices ![0, 0, 1, 0, 0] S2x2048x1x16x64
  slices_S2x2048x3x16x64_S2x2048x1x16x64_0_0_2_0_0 : S2x2048x3x16x64.Slices ![0, 0, 2, 0, 0] S2x2048x1x16x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Spec.lean ====
/-
  The mathematics of the two programs, index by index over the extended reals.

  Both compute multi-head attention of `x : [2, 2048, 1024]` with a fused projection `w : [3072, 1024]`
  (sections of 1024 columns: queries, keys, values; inside a section, head `h` owns columns `64 h … 64 h + 63`),
  softmax over the key axis with the scores scaled by the word `0x3D000000` (1/32), and an output projection
  `wo : [1024, 1024]` with bias. They differ in two places only:
  * the scale multiplies each query entry (one program) or the finished score (the other);
  * the softmax denominator divides the finished weighted sum (one program) or each weight (the other).
  `outK` and `outR` are the two readings; `outK_eq_outR` joins them where the scores are finite.
-/
import Idealize.ShloMosaic.PureOps.Ideal
import Idealize.ShloMosaic.Lib.ValueIdx

noncomputable section

open scoped BigOperators

namespace Cert.Attn

open Idealize.ShloMosaic Idealize.ShloMosaic.ValueIdx

/-- The shapes of the four arguments. -/
abbrev SX : Shape := ⟨3, ![2, 2048, 1024]⟩
abbrev SW : Shape := ⟨2, ![3072, 1024]⟩
abbrev SO : Shape := ⟨2, ![1024, 1024]⟩
abbrev SB : Shape := ⟨1, ![1024]⟩
/-- The flattened activations `[4096, 1024]` and the bias as a row `[1, 1024]`. -/
abbrev SF : Shape := ⟨2, ![4096, 1024]⟩
abbrev SR : Shape := ⟨2, ![1, 1024]⟩

/-- The softmax scale as both programs print it: the f32 word of 1/32. -/
abbrev scale : EReal := Ideal.ofBits .f32 0x3D000000#32

/-- An extended real that is a real number. -/
def IsFin (x : EReal) : Prop := ∃ r : ℝ, x = (r : EReal)

/-- Row `(b, l)` of `x` against row `e` of the fused weight. -/
def proj (X : SX.Idx → EReal) (W : SW.Idx → EReal) (b : Fin 2) (l : Fin 2048) (e : Fin 3072) : EReal :=
  ∑ d : Fin 1024, X (ix3 b l d) * W (ix2 e d)

/-- Column `j` of section `s` (0 queries, 1 keys, 2 values) of the fused projection. -/
def sec (s : Fin 3) (j : Fin 1024) : Fin 3072 := ⟨s.val * 1024 + j.val, by omega⟩

/-- Lane `d` of the head that owns column `j`. -/
def headCol (j : Fin 1024) (d : Fin 64) : Fin 1024 := ⟨j.val / 64 * 64 + d.val, by omega⟩

/-! ## One softmax row -/

/-- The row maximum, folded from −∞. -/
def rowMax (s : Fin 2048 → EReal) : EReal := (Finset.univ : Finset (Fin 2048)).fold max ⊥ s
/-- The shifted exponentials. -/
def rowExp (s : Fin 2048 → EReal) (k : Fin 2048) : EReal := Ideal.exp (s k - rowMax s)
/-- Their sum. -/
def rowDen (s : Fin 2048 → EReal) : EReal := ∑ k : Fin 2048, rowExp s k

/-! ## The program that scales the queries and divides last -/

/-- The three projected arrays it keeps: queries already scaled. -/
def qA (X : SX.Idx → EReal) (W : SW.Idx → EReal) : SX.Idx → EReal := fun i => proj X W (i 0) (i 1) (sec 0 (i 2)) * scale
def kA (X : SX.Idx → EReal) (W : SW.Idx → EReal) : SX.Idx → EReal := fun i => proj X W (i 0) (i 1) (sec 1 (i 2))
def vA (X : SX.Idx → EReal) (W : SW.Idx → EReal) : SX.Idx → EReal := fun i => proj X W (i 0) (i 1) (sec 2 (i 2))

/-- Scores of query row `l` against every key row, inside the head that owns column `j`, from ANY three arrays. -/
def scoreA (Q K : SX.Idx → EReal) (b : Fin 2) (j : Fin 1024) (l : Fin 2048) : Fin 2048 → EReal :=
  fun lk => ∑ d : Fin 64, Q (ix3 b l (headCol j d)) * K (ix3 b lk (headCol j d))

/-- Attention output at `(b, l, j)`: the exponentials against the values, divided by their sum at the end. -/
def attnA (Q K V : SX.Idx → EReal) (b : Fin 2) (l : Fin 2048) (j : Fin 1024) : EReal :=
  Ideal.div (∑ lk : Fin 2048, rowExp (scoreA Q K b j l) lk * V (ix3 b lk j)) (rowDen (scoreA Q K b j l))

/-- The attention output as an array. -/
def attnArr (Q K V : SX.Idx → EReal) : SX.Idx → EReal := fun i => attnA Q K V (i 0) (i 1) (i 2)

/-- The output projection of flattened activations `O2 : [4096, 1024]` with the bias as a row. -/
def outA (O2 : SF.Idx → EReal) (Wo : SO.Idx → EReal) (B2 : SR.Idx → EReal) (r : Fin 4096) (e : Fin 1024) : EReal :=
  (∑ j : Fin 1024, O2 (ix2 r j) * Wo (ix2 e j)) + B2 (ix2 (0 : Fin 1) e)

/-- The whole of it at `(b, l, e)`. -/
def outK (X : SX.Idx → EReal) (W : SW.Idx → EReal) (Wo : SO.Idx → EReal) (B : SB.Idx → EReal)
    (b : Fin 2) (l : Fin 2048) (e : Fin 1024) : EReal :=
  (∑ j : Fin 1024, attnA (qA X W) (kA X W) (vA X W) b l j * Wo (ix2 e j)) + B (ix1 e)

/-! ## The program that scales the scores and divides each weight -/

def scoreR (X : SX.Idx → EReal) (W : SW.Idx → EReal) (b : Fin 2) (j : Fin 1024) (l : Fin 2048) : Fin 2048 → EReal :=
  fun lk => (∑ d : Fin 64, proj X W b l (sec 0 (headCol j d)) * proj X W b lk (sec 1 (headCol j d))) * scale

def attnR (X : SX.Idx → EReal) (W : SW.Idx → EReal) (b : Fin 2) (l : Fin 2048) (j : Fin 1024) : EReal :=
  ∑ lk : Fin 2048, Ideal.div (rowExp (scoreR X W b j l) lk) (rowDen (scoreR X W b j l)) * proj X W b lk (sec 2 j)

def outR (X : SX.Idx → EReal) (W : SW.Idx → EReal) (Wo : SO.Idx → EReal) (B : SB.Idx → EReal)
    (b : Fin 2) (l : Fin 2048) (e : Fin 1024) : EReal :=
  (∑ j : Fin 1024, attnR X W b l j * Wo (ix2 e j)) + B (ix1 e)

/-! ## The same as arrays -/

/-- The output projection as an array over `[4096, 1024]`. -/
def outArr (O2 : SF.Idx → EReal) (Wo : SO.Idx → EReal) (B2 : SR.Idx → EReal) : SF.Idx → EReal :=
  fun i => outA O2 Wo B2 (i 0) (i 1)

/-- The two whole results as arrays over `[2, 2048, 1024]`. -/
def outKArr (X : SX.Idx → EReal) (W : SW.Idx → EReal) (Wo : SO.Idx → EReal) (B : SB.Idx → EReal) : SX.Idx → EReal :=
  fun i => outK X W Wo B (i 0) (i 1) (i 2)
def outRArr (X : SX.Idx → EReal) (W : SW.Idx → EReal) (Wo : SO.Idx → EReal) (B : SB.Idx → EReal) : SX.Idx → EReal :=
  fun i => outR X W Wo B (i 0) (i 1) (i 2)

end Cert.Attn

end
-- ==== Proof.Algebra.lean ====
/-
  The two readings of the attention agree on finite inputs.

  Two laws of the extended reals carry it. A nonnegative real factor moves across a finite sum
  (`sum_mul_of_nonneg_real`): that takes the scale 1/32 from each query entry to the finished score. And when
  every score of a softmax row is a real number, the row's maximum is a real number too, so the shifted
  exponentials are positive reals, their sum is a positive real, and dividing by it is multiplying by a
  nonnegative real, which again moves across the sum (`attn_row_eq`).
-/
import proofs.«428929_j8203387535468_3_alg».proof.Proof.Spec
import Mathlib.Data.EReal.Operations
import Mathlib.Data.EReal.Inv

noncomputable section

open scoped BigOperators

namespace Cert.Attn

open Idealize.ShloMosaic Idealize.ShloMosaic.ValueIdx

/-! ## Finite extended reals are closed under the ring operations -/

/-- A product of two real numbers is a real number. -/
theorem IsFin.mul {x y : EReal} (hx : IsFin x) (hy : IsFin y) : IsFin (x * y) := by
  obtain ⟨a, rfl⟩ := hx; obtain ⟨b, rfl⟩ := hy
  exact ⟨a * b, (EReal.coe_mul a b).symm⟩

/-- A sum of two real numbers is a real number. -/
theorem IsFin.add {x y : EReal} (hx : IsFin x) (hy : IsFin y) : IsFin (x + y) := by
  obtain ⟨a, rfl⟩ := hx; obtain ⟨b, rfl⟩ := hy
  exact ⟨a + b, (EReal.coe_add a b).symm⟩

/-- A finite sum of real numbers is a real number. -/
theorem IsFin.sum {ι : Type*} (t : Finset ι) (f : ι → EReal) (h : ∀ i ∈ t, IsFin (f i)) : IsFin (∑ i ∈ t, f i) := by
  classical
  induction t using Finset.induction_on with
  | empty => exact ⟨0, by simp⟩
  | insert a t ha ih =>
    rw [Finset.sum_insert ha]
    exact IsFin.add (h a (Finset.mem_insert_self a t)) (ih fun i hi => h i (Finset.mem_insert_of_mem hi))

/-- The embedding of the reals commutes with finite sums. -/
theorem coe_sum_real {ι : Type*} (t : Finset ι) (f : ι → ℝ) :
    (∑ i ∈ t, (f i : EReal)) = ((∑ i ∈ t, f i : ℝ) : EReal) := by
  classical
  induction t using Finset.induction_on with
  | empty => simp
  | insert a t ha ih =>
    rw [Finset.sum_insert ha, Finset.sum_insert ha, ih, EReal.coe_add]

/-- Folding `max` from −∞ over a nonempty family of real numbers lands on a real number: the first element
    absorbs the −∞, and after that the maximum of two reals is a real. -/
theorem fold_max_coe {ι : Type*} (t : Finset ι) (f : ι → ℝ) (hne : t.Nonempty) :
    ∃ M : ℝ, t.fold max ⊥ (fun k => (f k : EReal)) = (M : EReal) := by
  classical
  induction t using Finset.induction_on with
  | empty => exact absurd hne Finset.not_nonempty_empty
  | insert a t ha ih =>
    rw [Finset.fold_insert ha]
    rcases t.eq_empty_or_nonempty with h | h
    · subst h
      exact ⟨f a, by simp⟩
    · obtain ⟨M, hM⟩ := ih h
      exact ⟨max (f a) M, by rw [hM]; exact (EReal.coe_strictMono.monotone.map_max).symm⟩

/-! ## The two readings agree on finite inputs -/

/-- The scale is the real 1/32. -/
theorem scale_eq : scale = ((1 / 32 : ℝ) : EReal) := by
  -- sign 0, exponent field 122, fraction 0: the value is 2^23 · 2^(122 − 127 − 23) = 2^(−5).
  simp [Ideal.ofBits, Ideal.ieee]
  rw [← EReal.coe_mul]
  norm_num

/-- The scale is nonnegative. -/
theorem scale_nonneg : (0 : EReal) ≤ scale := by
  rw [scale_eq]; exact EReal.coe_nonneg.mpr (by norm_num)

/-- The scale is not +∞. -/
theorem scale_ne_top : scale ≠ ⊤ := by
  rw [scale_eq]; exact EReal.coe_ne_top _

/-- The scale is a real number. -/
theorem isFin_scale : IsFin scale := ⟨1 / 32, scale_eq⟩

/-- A nonnegative real factor moves across a finite sum of extended reals. -/
theorem sum_mul_of_nonneg_real {ι : Type*} (t : Finset ι) (f : ι → EReal) (c : EReal) (h0 : 0 ≤ c) (ht : c ≠ ⊤) :
    (∑ i ∈ t, f i * c) = (∑ i ∈ t, f i) * c := by
  classical
  induction t using Finset.induction_on with
  | empty => simp
  | insert a t ha ih =>
    rw [Finset.sum_insert ha, Finset.sum_insert ha, ih, EReal.right_distrib_of_nonneg_of_ne_top h0 ht]

/-- One softmax row with finite scores: dividing the weighted sum is dividing each weight. -/
theorem attn_row_eq (s : Fin 2048 → EReal) (hs : ∀ k, IsFin (s k)) (v : Fin 2048 → EReal) :
    Ideal.div (∑ k : Fin 2048, rowExp s k * v k) (rowDen s)
      = ∑ k : Fin 2048, Ideal.div (rowExp s k) (rowDen s) * v k := by
  -- the scores are the reals σ k, and their maximum is a real M
  choose σ hσ using hs
  obtain rfl : s = fun k => (σ k : EReal) := funext hσ
  obtain ⟨M, hM⟩ := fold_max_coe (Finset.univ : Finset (Fin 2048)) σ Finset.univ_nonempty
  -- so each shifted exponential is the real exp (σ k − M) …
  have hexp : ∀ k, rowExp (fun k => (σ k : EReal)) k = ((Real.exp (σ k - M) : ℝ) : EReal) := by
    intro k
    unfold rowExp rowMax
    rw [hM, ← EReal.coe_sub, Ideal.exp_coe]
  -- … and the denominator is the real D = ∑ exp (σ k − M), which is positive
  have hden : rowDen (fun k => (σ k : EReal)) = ((∑ k : Fin 2048, Real.exp (σ k - M) : ℝ) : EReal) := by
    unfold rowDen
    rw [← coe_sum_real]
    exact Finset.sum_congr rfl fun k _ => hexp k
  have hD : (0 : ℝ) < ∑ k : Fin 2048, Real.exp (σ k - M) :=
    Finset.sum_pos (fun k _ => Real.exp_pos _) Finset.univ_nonempty
  have h0 : (0 : EReal) ≤ ((1 / ∑ k : Fin 2048, Real.exp (σ k - M) : ℝ) : EReal) :=
    EReal.coe_nonneg.mpr (one_div_pos.mpr hD).le
  -- dividing by D is multiplying by the nonnegative real 1/D, which moves across the sum
  rw [hden]
  simp only [Ideal.div_coe hD.ne']
  rw [← sum_mul_of_nonneg_real _ _ _ h0 (EReal.coe_ne_top _)]
  exact Finset.sum_congr rfl fun k _ => mul_right_comm _ _ _

/-- A projection of finite arrays is finite. -/
theorem isFin_proj (X : SX.Idx → EReal) (W : SW.Idx → EReal) (hX : ∀ i, IsFin (X i)) (hW : ∀ i, IsFin (W i))
    (b : Fin 2) (l : Fin 2048) (e : Fin 3072) : IsFin (proj X W b l e) := by
  unfold proj
  exact IsFin.sum _ _ fun d _ => IsFin.mul (hX _) (hW _)

/-- Scaling each query entry is scaling the finished score: (p · c) · q = (p · q) · c term by term, and the
    nonnegative real c moves across the sum over the head's lanes. -/
theorem scoreA_eq (X : SX.Idx → EReal) (W : SW.Idx → EReal) (b : Fin 2) (j : Fin 1024) (l : Fin 2048) :
    scoreA (qA X W) (kA X W) b j l = scoreR X W b j l := by
  funext lk
  unfold scoreA scoreR
  rw [← sum_mul_of_nonneg_real _ _ _ scale_nonneg scale_ne_top]
  refine Finset.sum_congr rfl fun d _ => ?_
  show proj X W b l (sec 0 (headCol j d)) * scale * proj X W b lk (sec 1 (headCol j d)) = _
  exact mul_right_comm _ _ _

/-- The attention outputs agree entry by entry: the scores agree, they are finite, and the row law applies with
    the value column as the weights' partner. -/
theorem attnA_eq (X : SX.Idx → EReal) (W : SW.Idx → EReal) (hX : ∀ i, IsFin (X i)) (hW : ∀ i, IsFin (W i))
    (b : Fin 2) (l : Fin 2048) (j : Fin 1024) :
    attnA (qA X W) (kA X W) (vA X W) b l j = attnR X W b l j := by
  unfold attnA attnR
  rw [scoreA_eq]
  have hs : ∀ k, IsFin (scoreR X W b j l k) := fun k =>
    IsFin.mul (IsFin.sum _ _ fun d _ => IsFin.mul (isFin_proj X W hX hW _ _ _) (isFin_proj X W hX hW _ _ _)) isFin_scale
  exact attn_row_eq (scoreR X W b j l) hs (fun lk => proj X W b lk (sec 2 j))

/-- THE BRIDGE: on finite `x` and fused weight the two readings are one function. -/
theorem outK_eq_outR (X : SX.Idx → EReal) (W : SW.Idx → EReal) (Wo : SO.Idx → EReal) (B : SB.Idx → EReal)
    (hX : ∀ i, IsFin (X i)) (hW : ∀ i, IsFin (W i)) (b : Fin 2) (l : Fin 2048) (e : Fin 1024) :
    outK X W Wo B b l e = outR X W Wo B b l e := by
  unfold outK outR
  congr 1
  exact Finset.sum_congr rfl fun j _ => by rw [attnA_eq X W hX hW b l j]

end Cert.Attn

end
-- ==== Proof.Finite.lean ====
/-
  The precondition, decoded: every entry of the activations and of the fused weight is a real number.

  The printed predicate is the conjunction of four "all entries have absolute value below +∞"; an extended
  real whose absolute value is below +∞ is neither infinity.
-/
import proofs.«428929_j8203387535468_3_alg».proof.Pre_finite_inputs
import proofs.«428929_j8203387535468_3_alg».proof.Proof.Gen.Pre_finite_inputs
import proofs.«428929_j8203387535468_3_alg».proof.Proof.Spec
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx Idealize.SL.Sem
open Cert.Attn

/-- The f32 word `0x7F800000` (sign 0, exponent all ones, fraction 0) denotes +∞. -/
theorem inf_word : Ideal.ofBits .f32 0x7F800000#32 = (⊤ : EReal) := by
  simp [Ideal.ofBits, Ideal.ieee]

/-- An extended real `x` with `max x (-x) < +∞` is a real number: at `⊤` the maximum is `⊤`, and at `⊥`
    it is `-⊥ = ⊤`, so neither passes the strict comparison. -/
theorem isFin_of_abs_lt (x : EReal)
    (h : Ideal.cmp .olt (max x (-x)) (Ideal.ofBits .f32 0x7F800000#32) = 1#1) : IsFin x := by
  rw [inf_word] at h
  induction x using EReal.rec with
  | bot => simp [Ideal.cmp] at h
  | top => simp [Ideal.cmp] at h
  | coe r => exact ⟨r, rfl⟩

/-- The rank-0 shape has one index: there is no axis to differ on. -/
local instance : Subsingleton S_.Idx := ⟨fun a b => funext fun d => d.elim0⟩

/-- One conjunct, for any shape: a conjunction over ALL entries of "`|a i| < +∞`" (a reduction by `and` from 1
    over every axis, into the one-index result) that came out 1 makes every entry of `a` a real number. -/
theorem all_fin {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ValueIdx.ix0 = 1#1) (i : s.Idx) : IsFin (a i) :=
  -- the entry of the compared array at `i` is 1, and it is by definition the comparison of `max (a i) (-(a i))`
  -- with the value of the broadcast word
  isFin_of_abs_lt (a i) (Host.reduce_andi_all _ _ hr hu _ e i)

theorem fin_of_pre [Cert.Pre_finite_inputs.Facts] (a0 : FVec Ideal S2x2048x1024 .f32) (a1 : FVec Ideal S3072x1024 .f32)
    (a2 : FVec Ideal S1024x1024 .f32) (a3 : FVec Ideal S1024 .f32)
    (h : Cert.Pre_finite_inputs.fn (F := Ideal) a0 a1 a2 a3 = fun _ => 1#1) :
    (∀ i, IsFin (a0 i)) ∧ (∀ i, IsFin (a1 i)) := by
  -- the predicate at its one index: ((c0 ∧ c1) ∧ c2) ∧ c3 = 1, each `c` one "all entries below +∞"
  have h0 := congrFun h ValueIdx.ix0
  dsimp only [fn, fn_part1] at h0
  dsimp only [andi] at h0
  -- a conjunction of bits is 1 only when both bits are 1: peel off c3, then c2, and keep c0 and c1
  obtain ⟨h012, -⟩ := IntOp.andi_eq_one.1 h0
  obtain ⟨h01, -⟩ := IntOp.andi_eq_one.1 h012
  obtain ⟨e0, e1⟩ := IntOp.andi_eq_one.1 h01
  exact ⟨all_fin a0 _ _ _ e0, all_fin a1 _ _ _ e1⟩

end Cert.Pre_finite_inputs.Decode

end
-- ==== Proof.KRegion0.lean ====
/-
  The projection region: what its three output arrays hold after the run.

  Grid point (b, li) loads rows 256 li … 256 li + 255 of batch b of the activations and the whole fused weight,
  forms the [256, 3072] product, and stores its three column sections (the first times the scale) as block
  (b, li) of the query, key and value arrays. The blocks tile each array, so each array is one function of
  the region's inputs: `qA`, `kA`, `vA`.
-/
import proofs.«428929_j8203387535468_3_alg».proof.Proof.Gen.KernelIdeal.Frame
import proofs.«428929_j8203387535468_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Attn

/-! ## The product read at an entry -/

/-- The row axis of the left operand is the result's row axis. -/
theorem lhs_prod_0 (i : S256x3072.Idx) (q : dot_S256x1024_S3072x1024_S256x3072_1_1_0_0_n_n.contr.Idx) :
    (dot_S256x1024_S3072x1024_S256x3072_1_1_0_0_n_n.lhsIdx i q 0).val = (i 0).val := by
  unfold DotDims.lhsIdx
  rw [dif_neg (show ¬(0 : Fin S256x1024.rank) ∈ dot_S256x1024_S3072x1024_S256x3072_1_1_0_0_n_n.lhsBatch by decide), dif_pos (show (0 : Fin S256x1024.rank) ∈ dot_S256x1024_S3072x1024_S256x3072_1_1_0_0_n_n.lhsNonContracting by decide)]
  rfl
/-- Its column axis is the summed one. -/
theorem lhs_prod_1 (i : S256x3072.Idx) (q : dot_S256x1024_S3072x1024_S256x3072_1_1_0_0_n_n.contr.Idx) :
    (dot_S256x1024_S3072x1024_S256x3072_1_1_0_0_n_n.lhsIdx i q 1).val = (q ⟨0, by decide⟩).val :=
  dot_S256x1024_S3072x1024_S256x3072_1_1_0_0_n_n.lhsIdx_val_of_single rfl i q
/-- The row axis of the right operand is the result's column axis. -/
theorem rhs_prod_0 (i : S256x3072.Idx) (q : dot_S256x1024_S3072x1024_S256x3072_1_1_0_0_n_n.contr.Idx) :
    (dot_S256x1024_S3072x1024_S256x3072_1_1_0_0_n_n.rhsIdx i q 0).val = (i 1).val := by
  unfold DotDims.rhsIdx
  rw [dif_neg (show ¬(0 : Fin S3072x1024.rank) ∈ dot_S256x1024_S3072x1024_S256x3072_1_1_0_0_n_n.rhsBatch by decide), dif_pos (show (0 : Fin S3072x1024.rank) ∈ dot_S256x1024_S3072x1024_S256x3072_1_1_0_0_n_n.rhsNonContracting by decide)]
  rfl
/-- Its column axis is the summed one. -/
theorem rhs_prod_1 (i : S256x3072.Idx) (q : dot_S256x1024_S3072x1024_S256x3072_1_1_0_0_n_n.contr.Idx) :
    (dot_S256x1024_S3072x1024_S256x3072_1_1_0_0_n_n.rhsIdx i q 1).val = (q ⟨0, by decide⟩).val :=
  dot_S256x1024_S3072x1024_S256x3072_1_1_0_0_n_n.rhsIdx_val_of_single rfl i q

/-- The product of a [256, 1024] block with the [3072, 1024] weight, both contracted along their second axis and
    accumulated from zero: entry (r, e) is the sum over d of row r at d times weight row e at d. -/
theorem prod_apply (x : FVec Ideal S256x1024 .bf16) (w : FVec Ideal S3072x1024 .bf16) (r : Fin 256) (e : Fin 3072) :
    matmul dot_S256x1024_S3072x1024_S256x3072_1_1_0_0_n_n none x w (constant (F := Ideal) S256x3072 .f32 0x00000000#32) (ix2 r e)
      = ∑ d : Fin 1024, x (ix2 r d) * w (ix2 e d) := by
  refine (Ideal.matmul_constant_zero_apply dot_S256x1024_S3072x1024_S256x3072_1_1_0_0_n_n none x w (ix2 r e)).trans ?_
  rw [← Equiv.sum_comp (ValueIdx.contrEquiv1 dot_S256x1024_S3072x1024_S256x3072_1_1_0_0_n_n 1024 rfl rfl).symm]
  refine Finset.sum_congr rfl fun k _ => ?_
  have hk := ValueIdx.contrEquiv1_symm_val dot_S256x1024_S3072x1024_S256x3072_1_1_0_0_n_n 1024 rfl rfl k
  have el : dot_S256x1024_S3072x1024_S256x3072_1_1_0_0_n_n.lhsIdx (ix2 r e) ((ValueIdx.contrEquiv1 dot_S256x1024_S3072x1024_S256x3072_1_1_0_0_n_n 1024 rfl rfl).symm k) = ix2 r k := funext fun a => Fin.ext (by
    match a with
    | ⟨0, _⟩ => exact lhs_prod_0 _ _
    | ⟨1, _⟩ => exact (lhs_prod_1 _ _).trans hk)
  have er : dot_S256x1024_S3072x1024_S256x3072_1_1_0_0_n_n.rhsIdx (ix2 r e) ((ValueIdx.contrEquiv1 dot_S256x1024_S3072x1024_S256x3072_1_1_0_0_n_n 1024 rfl rfl).symm k) = ix2 e k := funext fun a => Fin.ext (by
    match a with
    | ⟨0, _⟩ => exact rhs_prod_0 _ _
    | ⟨1, _⟩ => exact (rhs_prod_1 _ _).trans hk)
  rw [el, er]

/-- The product the body forms from a loaded block of activations and the loaded weight: entry (r, e) is row r of the
    block against row e of the weight (the cast that drops the block's unit axis keeps the row, the rounding is the
    identity on the extended reals). -/
theorem block_prod_apply (x0 : Vec Ideal S1x256x1024 .f32) (w : Vec Ideal S3072x1024 .bf16) (r : Fin 256) (e : Fin 3072) :
    k0_pay1 (F := Ideal) x0 w (ix2 r e) = ∑ d : Fin 1024, x0 (ix3 (0 : Fin 1) r d) * w (ix2 e d) := by
  unfold k0_pay1
  refine (prod_apply _ _ r e).trans ?_
  refine Finset.sum_congr rfl fun d _ => ?_
  refine congrArg₂ (· * ·) ?_ ?_
  · exact shapeCast_1ab_ab_apply x0 _ r d
  · exact congrFun (shapeCast_self w _) (ix2 e d)

/-- The query section, stored with a unit axis in front: entry (u, r, j) is the product's entry (r, j) times the scale
    (the scalar constant of the body is the scale's own word, and rounding is the identity on the extended reals). -/
theorem q_block_apply (x0 : Vec Ideal S1x256x1024 .f32) (w : Vec Ideal S3072x1024 .bf16) (u : Fin 1) (r : Fin 256) (j : Fin 1024) :
    k0_pay2 (F := Ideal) x0 w (ix3 u r j) = (∑ d : Fin 1024, x0 (ix3 (0 : Fin 1) r d) * w (ix2 (sec 0 j) d)) * scale := by
  unfold k0_pay2
  refine (shapeCast_ab_1ab_apply _ _ u r j).trans ?_
  show extractStridedSlice S256x1024 ![0, 0] (k0_pay1 x0 w) slices_S256x3072_o0_0_S256x1024 (ix2 r j) * scale = _
  refine congrArg (· * scale) ?_
  refine (slice2_axis1_apply 0 (k0_pay1 x0 w) _ r j (sec 0 j) (by show 0 * 1024 + j.val = 0 + j.val; omega)).trans ?_
  exact block_prod_apply x0 w r (sec 0 j)

/-- The key section: columns 1024 … 2047 of the product, unscaled. -/
theorem k_block_apply (x0 : Vec Ideal S1x256x1024 .f32) (w : Vec Ideal S3072x1024 .bf16) (u : Fin 1) (r : Fin 256) (j : Fin 1024) :
    k0_pay3 (F := Ideal) x0 w (ix3 u r j) = ∑ d : Fin 1024, x0 (ix3 (0 : Fin 1) r d) * w (ix2 (sec 1 j) d) := by
  unfold k0_pay3
  refine (shapeCast_ab_1ab_apply _ _ u r j).trans ?_
  show extractStridedSlice S256x1024 ![0, 1024] (k0_pay1 x0 w) slices_S256x3072_o0_1024_S256x1024 (ix2 r j) = _
  refine (slice2_axis1_apply 1024 (k0_pay1 x0 w) _ r j (sec 1 j) (by show 1 * 1024 + j.val = 1024 + j.val; omega)).trans ?_
  exact block_prod_apply x0 w r (sec 1 j)

/-- The value section: columns 2048 … 3071 of the product, unscaled. -/
theorem v_block_apply (x0 : Vec Ideal S1x256x1024 .f32) (w : Vec Ideal S3072x1024 .bf16) (u : Fin 1) (r : Fin 256) (j : Fin 1024) :
    k0_pay4 (F := Ideal) x0 w (ix3 u r j) = ∑ d : Fin 1024, x0 (ix3 (0 : Fin 1) r d) * w (ix2 (sec 2 j) d) := by
  unfold k0_pay4
  refine (shapeCast_ab_1ab_apply _ _ u r j).trans ?_
  show extractStridedSlice S256x1024 ![0, 2048] (k0_pay1 x0 w) slices_S256x3072_o0_2048_S256x1024 (ix2 r j) = _
  refine (slice2_axis1_apply 2048 (k0_pay1 x0 w) _ r j (sec 2 j) (by show 2 * 1024 + j.val = 2048 + j.val; omega)).trans ?_
  exact block_prod_apply x0 w r (sec 2 j)

/-! ## From a grid point's blocks to the arrays -/

-- the buffer contents the region is entered with: a parameter, as in the frame
variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl

/-- The block indices, decided over the sixteen grid points: the three output windows move with the activations'
    window (batch, row block, column block 0), the weight's window stays at its one block, and the ranges. -/
theorem block_index_facts : ∀ t : Fin cfg0.N,
    win0_2.index t (0 : Fin 3) = win0_0.index t (0 : Fin 3) ∧ win0_2.index t (1 : Fin 3) = win0_0.index t (1 : Fin 3)
    ∧ win0_3.index t (0 : Fin 3) = win0_0.index t (0 : Fin 3) ∧ win0_3.index t (1 : Fin 3) = win0_0.index t (1 : Fin 3)
    ∧ win0_4.index t (0 : Fin 3) = win0_0.index t (0 : Fin 3) ∧ win0_4.index t (1 : Fin 3) = win0_0.index t (1 : Fin 3)
    ∧ win0_0.index t (2 : Fin 3) = 0 ∧ win0_2.index t (2 : Fin 3) = 0 ∧ win0_3.index t (2 : Fin 3) = 0 ∧ win0_4.index t (2 : Fin 3) = 0
    ∧ win0_1.index t (0 : Fin 2) = 0 ∧ win0_1.index t (1 : Fin 2) = 0
    ∧ win0_0.index t (0 : Fin 3) ≤ 1 ∧ win0_0.index t (1 : Fin 3) ≤ 7 :=
  (by decide +kernel : ∀ t : Fin grid0.N, _)

/-- Every (batch, row block) is some grid point's, for the three output windows at once. -/
theorem block_index_onto : ∀ (q0 : Fin 2) (q1 : Fin 8), ∃ t : Fin cfg0.N,
    win0_2.index t = ![q0.val, q1.val, 0] ∧ win0_3.index t = ![q0.val, q1.val, 0] ∧ win0_4.index t = ![q0.val, q1.val, 0] :=
  (by decide +kernel : ∀ (q0 : Fin 2) (q1 : Fin 8), ∃ t : Fin grid0.N,
    win0_2.index t = ![q0.val, q1.val, 0] ∧ win0_3.index t = ![q0.val, q1.val, 0] ∧ win0_4.index t = ![q0.val, q1.val, 0])

/-- Row `r` of the activations' block at point `t` is row `256 · (row block) + r` of batch `(batch block)` of the array. -/
theorem x_block_apply (c : Dev nD) (t : Fin cfg0.N) (r : Fin 256) (d : Fin 1024) (b : Fin 2) (l : Fin 2048)
    (hb : b.val = win0_0.index t (0 : Fin 3)) (hl : l.val = win0_0.index t (1 : Fin 3) * 256 + r.val) :
    iblk0 V c 0 t (ix3 (0 : Fin 1) r d) = V c main_arg0 (ix3 b l d) := by
  obtain ⟨-, -, -, -, -, -, e2, -, -, -, -, -, -, -⟩ := block_index_facts t
  show V c main_arg0 (((cfg0.win 0).blk t).view.emb (ix3 (0 : Fin 1) r d)) = V c main_arg0 (ix3 b l d)
  refine congrArg (V c main_arg0) (funext fun a => Fin.ext ?_)
  match a with
  | ⟨0, _⟩ => show win0_0.index t (0 : Fin 3) * 1 + 1 * 0 = b.val; omega
  | ⟨1, _⟩ => show win0_0.index t (1 : Fin 3) * 256 + 1 * r.val = l.val; omega
  | ⟨2, _⟩ => show win0_0.index t (2 : Fin 3) * 1024 + 1 * d.val = d.val; omega

/-- The weight's block at every point is the whole weight. -/
theorem w_block_apply (c : Dev nD) (t : Fin cfg0.N) (e : Fin 3072) (d : Fin 1024) :
    iblk0 V c 1 t (ix2 e d) = V c main_v0 (ix2 e d) := by
  obtain ⟨-, -, -, -, -, -, -, -, -, -, w0, w1, -, -⟩ := block_index_facts t
  show V c main_v0 (((cfg0.win 1).blk t).view.emb (ix2 e d)) = V c main_v0 (ix2 e d)
  refine congrArg (V c main_v0) (funext fun a => Fin.ext ?_)
  match a with
  | ⟨0, _⟩ => show win0_1.index t (0 : Fin 2) * 3072 + 1 * e.val = e.val; omega
  | ⟨1, _⟩ => show win0_1.index t (1 : Fin 2) * 1024 + 1 * d.val = d.val; omega

/-- Entry (u, r, j) of the query block at point `t` sits in the array at (batch block, 256 · row block + r, j). -/
theorem query_emb (t : Fin cfg0.N) (u : Fin 1) (r : Fin 256) (j : Fin 1024) :
    ∃ (b : Fin 2) (l : Fin 2048), b.val = win0_0.index t (0 : Fin 3) ∧ l.val = win0_0.index t (1 : Fin 3) * 256 + r.val
      ∧ ((cfg0.win 2).blk t).view.emb (ix3 u r j) = ix3 b l j := by
  obtain ⟨q0, q1, k0, k1, v0, v1, -, q2, k2, v2, -, -, h0, h1⟩ := block_index_facts t
  have hu : u.val = 0 := by omega
  refine ⟨⟨win0_0.index t (0 : Fin 3), by omega⟩, ⟨win0_0.index t (1 : Fin 3) * 256 + r.val, by omega⟩, rfl, rfl, ?_⟩
  refine funext fun a => Fin.ext ?_
  match a with
  | ⟨0, _⟩ => show win0_2.index t (0 : Fin 3) * 1 + 1 * u.val = win0_0.index t (0 : Fin 3); omega
  | ⟨1, _⟩ => show win0_2.index t (1 : Fin 3) * 256 + 1 * r.val = win0_0.index t (1 : Fin 3) * 256 + r.val; omega
  | ⟨2, _⟩ => show win0_2.index t (2 : Fin 3) * 1024 + 1 * j.val = j.val; omega

/-- What point `t` writes back to the query array is block `t` of `qA` of the activations and the weight. -/
theorem query_flushed (c : Dev nD) (t : Fin cfg0.N) :
    (dat0 (F := Ideal) V c).flushed 2 t = ((cfg0.win 2).blk t).view.read (Elt Ideal) (qA (V c main_arg0) (V c main_v0)) := by
  show (cfg0.win 2).cut (grid0.coords t) ((dat0 V c).after 2 t) = _
  rw [after0_2]
  unfold out0_2
  rw [View.canon_unit_zero zero3]
  simp only [View.ld_unit_zero (S := S1x256x1024) zero3, View.ld_unit_zero (S := S3072x1024) zero2]
  funext y
  obtain ⟨u, r, j, rfl⟩ : ∃ (u : Fin 1) (r : Fin 256) (j : Fin 1024), y = ix3 u r j := ⟨y 0, y 1, y 2, eq_ix3 y⟩
  obtain ⟨b, l, hb, hl, hemb⟩ := query_emb t u r j
  show k0_pay2 (iblk0 V c 0 t) (iblk0 V c 1 t) (ix3 u r j) = qA (V c main_arg0) (V c main_v0) (((cfg0.win 2).blk t).view.emb (ix3 u r j))
  rw [hemb]
  refine (q_block_apply (iblk0 V c 0 t) (iblk0 V c 1 t) u r j).trans ?_
  show _ = proj (V c main_arg0) (V c main_v0) b l (sec 0 j) * scale
  unfold proj
  refine congrArg (· * scale) ?_
  refine Finset.sum_congr rfl fun d _ => ?_
  rw [x_block_apply V c t r d b l hb hl, w_block_apply V c t (sec 0 j) d]

/-- An index of the query array is in point `t`'s block iff each coordinate is in the block's range on its axis. -/
theorem query_mem_blk (t : Fin cfg0.N) (i : S2x2048x1024.Idx) :
    i ∈ ((cfg0.win 2).blk t).view.set ↔ ∀ a : Fin 3, win0_2.index t a * S1x256x1024.size a ≤ (i a).val ∧ (i a).val < win0_2.index t a * S1x256x1024.size a + S1x256x1024.size a := by
  show i ∈ ((View.whole main_v2_0).slice (win0_2.rect t)).set ↔ _
  rw [View.set_slice_whole, Rect.mem_set_unit]
  exact Iff.rfl

/-- The blocks tile the query array: row `l` of batch `b` is in the block of the point at (b, l / 256). -/
theorem query_cover (i : S2x2048x1024.Idx) : ∃ t : Fin cfg0.N, (cfg0.win 2).flush t = true ∧ i ∈ ((cfg0.win 2).blk t).view.set := by
  have hi0 : (i 0).val < 2 := (i 0).isLt
  have hi1 : (i 1).val < 2048 := (i 1).isLt
  have hi2 : (i 2).val < 1024 := (i 2).isLt
  obtain ⟨t, hq, hk, hv⟩ := block_index_onto ⟨(i 0).val, hi0⟩ ⟨(i 1).val / 256, by omega⟩
  have e0 : win0_2.index t (0 : Fin 3) = (i 0).val := congrFun hq 0
  have e1 : win0_2.index t (1 : Fin 3) = (i 1).val / 256 := congrFun hq 1
  have e2 : win0_2.index t (2 : Fin 3) = 0 := congrFun hq 2
  refine ⟨t, flush0_2 t, ?_⟩
  rw [query_mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- Entry (u, r, j) of the key block at point `t` sits in the array at (batch block, 256 · row block + r, j). -/
theorem key_emb (t : Fin cfg0.N) (u : Fin 1) (r : Fin 256) (j : Fin 1024) :
    ∃ (b : Fin 2) (l : Fin 2048), b.val = win0_0.index t (0 : Fin 3) ∧ l.val = win0_0.index t (1 : Fin 3) * 256 + r.val
      ∧ ((cfg0.win 3).blk t).view.emb (ix3 u r j) = ix3 b l j := by
  obtain ⟨q0, q1, k0, k1, v0, v1, -, q2, k2, v2, -, -, h0, h1⟩ := block_index_facts t
  have hu : u.val = 0 := by omega
  refine ⟨⟨win0_0.index t (0 : Fin 3), by omega⟩, ⟨win0_0.index t (1 : Fin 3) * 256 + r.val, by omega⟩, rfl, rfl, ?_⟩
  refine funext fun a => Fin.ext ?_
  match a with
  | ⟨0, _⟩ => show win0_3.index t (0 : Fin 3) * 1 + 1 * u.val = win0_0.index t (0 : Fin 3); omega
  | ⟨1, _⟩ => show win0_3.index t (1 : Fin 3) * 256 + 1 * r.val = win0_0.index t (1 : Fin 3) * 256 + r.val; omega
  | ⟨2, _⟩ => show win0_3.index t (2 : Fin 3) * 1024 + 1 * j.val = j.val; omega

/-- What point `t` writes back to the key array is block `t` of `kA` of the activations and the weight. -/
theorem key_flushed (c : Dev nD) (t : Fin cfg0.N) :
    (dat0 (F := Ideal) V c).flushed 3 t = ((cfg0.win 3).blk t).view.read (Elt Ideal) (kA (V c main_arg0) (V c main_v0)) := by
  show (cfg0.win 3).cut (grid0.coords t) ((dat0 V c).after 3 t) = _
  rw [after0_3]
  unfold out0_3
  rw [View.canon_unit_zero zero3]
  simp only [View.ld_unit_zero (S := S1x256x1024) zero3, View.ld_unit_zero (S := S3072x1024) zero2]
  funext y
  obtain ⟨u, r, j, rfl⟩ : ∃ (u : Fin 1) (r : Fin 256) (j : Fin 1024), y = ix3 u r j := ⟨y 0, y 1, y 2, eq_ix3 y⟩
  obtain ⟨b, l, hb, hl, hemb⟩ := key_emb t u r j
  show k0_pay3 (iblk0 V c 0 t) (iblk0 V c 1 t) (ix3 u r j) = kA (V c main_arg0) (V c main_v0) (((cfg0.win 3).blk t).view.emb (ix3 u r j))
  rw [hemb]
  refine (k_block_apply (iblk0 V c 0 t) (iblk0 V c 1 t) u r j).trans ?_
  show _ = proj (V c main_arg0) (V c main_v0) b l (sec 1 j)
  unfold proj
  refine Finset.sum_congr rfl fun d _ => ?_
  rw [x_block_apply V c t r d b l hb hl, w_block_apply V c t (sec 1 j) d]

/-- An index of the key array is in point `t`'s block iff each coordinate is in the block's range on its axis. -/
theorem key_mem_blk (t : Fin cfg0.N) (i : S2x2048x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v2_1).slice (win0_3.rect t)).set ↔ _
  rw [View.set_slice_whole, Rect.mem_set_unit]
  exact Iff.rfl

/-- The blocks tile the key array: row `l` of batch `b` is in the block of the point at (b, l / 256). -/
theorem key_cover (i : S2x2048x1024.Idx) : ∃ t : Fin cfg0.N, (cfg0.win 3).flush t = true ∧ i ∈ ((cfg0.win 3).blk t).view.set := by
  have hi0 : (i 0).val < 2 := (i 0).isLt
  have hi1 : (i 1).val < 2048 := (i 1).isLt
  have hi2 : (i 2).val < 1024 := (i 2).isLt
  obtain ⟨t, hq, hk, hv⟩ := block_index_onto ⟨(i 0).val, hi0⟩ ⟨(i 1).val / 256, by omega⟩
  have e0 : win0_3.index t (0 : Fin 3) = (i 0).val := congrFun hk 0
  have e1 : win0_3.index t (1 : Fin 3) = (i 1).val / 256 := congrFun hk 1
  have e2 : win0_3.index t (2 : Fin 3) = 0 := congrFun hk 2
  refine ⟨t, flush0_3 t, ?_⟩
  rw [key_mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- Entry (u, r, j) of the value block at point `t` sits in the array at (batch block, 256 · row block + r, j). -/
theorem value_emb (t : Fin cfg0.N) (u : Fin 1) (r : Fin 256) (j : Fin 1024) :
    ∃ (b : Fin 2) (l : Fin 2048), b.val = win0_0.index t (0 : Fin 3) ∧ l.val = win0_0.index t (1 : Fin 3) * 256 + r.val
      ∧ ((cfg0.win 4).blk t).view.emb (ix3 u r j) = ix3 b l j := by
  obtain ⟨q0, q1, k0, k1, v0, v1, -, q2, k2, v2, -, -, h0, h1⟩ := block_index_facts t
  have hu : u.val = 0 := by omega
  refine ⟨⟨win0_0.index t (0 : Fin 3), by omega⟩, ⟨win0_0.index t (1 : Fin 3) * 256 + r.val, by omega⟩, rfl, rfl, ?_⟩
  refine funext fun a => Fin.ext ?_
  match a with
  | ⟨0, _⟩ => show win0_4.index t (0 : Fin 3) * 1 + 1 * u.val = win0_0.index t (0 : Fin 3); omega
  | ⟨1, _⟩ => show win0_4.index t (1 : Fin 3) * 256 + 1 * r.val = win0_0.index t (1 : Fin 3) * 256 + r.val; omega
  | ⟨2, _⟩ => show win0_4.index t (2 : Fin 3) * 1024 + 1 * j.val = j.val; omega

/-- What point `t` writes back to the value array is block `t` of `vA` of the activations and the weight. -/
theorem value_flushed (c : Dev nD) (t : Fin cfg0.N) :
    (dat0 (F := Ideal) V c).flushed 4 t = ((cfg0.win 4).blk t).view.read (Elt Ideal) (vA (V c main_arg0) (V c main_v0)) := by
  show (cfg0.win 4).cut (grid0.coords t) ((dat0 V c).after 4 t) = _
  rw [after0_4]
  unfold out0_4
  rw [View.canon_unit_zero zero3]
  simp only [View.ld_unit_zero (S := S1x256x1024) zero3, View.ld_unit_zero (S := S3072x1024) zero2]
  funext y
  obtain ⟨u, r, j, rfl⟩ : ∃ (u : Fin 1) (r : Fin 256) (j : Fin 1024), y = ix3 u r j := ⟨y 0, y 1, y 2, eq_ix3 y⟩
  obtain ⟨b, l, hb, hl, hemb⟩ := value_emb t u r j
  show k0_pay4 (iblk0 V c 0 t) (iblk0 V c 1 t) (ix3 u r j) = vA (V c main_arg0) (V c main_v0) (((cfg0.win 4).blk t).view.emb (ix3 u r j))
  rw [hemb]
  refine (v_block_apply (iblk0 V c 0 t) (iblk0 V c 1 t) u r j).trans ?_
  show _ = proj (V c main_arg0) (V c main_v0) b l (sec 2 j)
  unfold proj
  refine Finset.sum_congr rfl fun d _ => ?_
  rw [x_block_apply V c t r d b l hb hl, w_block_apply V c t (sec 2 j) d]

/-- An index of the value array is in point `t`'s block iff each coordinate is in the block's range on its axis. -/
theorem value_mem_blk (t : Fin cfg0.N) (i : S2x2048x1024.Idx) :
    i ∈ ((cfg0.win 4).blk t).view.set ↔ ∀ a : Fin 3, win0_4.index t a * S1x256x1024.size a ≤ (i a).val ∧ (i a).val < win0_4.index t a * S1x256x1024.size a + S1x256x1024.size a := by
  show i ∈ ((View.whole main_v2_2).slice (win0_4.rect t)).set ↔ _
  rw [View.set_slice_whole, Rect.mem_set_unit]
  exact Iff.rfl

/-- The blocks tile the value array: row `l` of batch `b` is in the block of the point at (b, l / 256). -/
theorem value_cover (i : S2x2048x1024.Idx) : ∃ t : Fin cfg0.N, (cfg0.win 4).flush t = true ∧ i ∈ ((cfg0.win 4).blk t).view.set := by
  have hi0 : (i 0).val < 2 := (i 0).isLt
  have hi1 : (i 1).val < 2048 := (i 1).isLt
  have hi2 : (i 2).val < 1024 := (i 2).isLt
  obtain ⟨t, hq, hk, hv⟩ := block_index_onto ⟨(i 0).val, hi0⟩ ⟨(i 1).val / 256, by omega⟩
  have e0 : win0_4.index t (0 : Fin 3) = (i 0).val := congrFun hv 0
  have e1 : win0_4.index t (1 : Fin 3) = (i 1).val / 256 := congrFun hv 1
  have e2 : win0_4.index t (2 : Fin 3) = 0 := congrFun hv 2
  refine ⟨t, flush0_4 t, ?_⟩
  rw [value_mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 1024 ≤ (i 2).val ∧ (i 2).val < win0_4.index t (2 : Fin 3) * 1024 + 1024; omega

/-! ## The three arrays after the region -/

theorem final_q (c : Dev nD) : (dat0 (F := Ideal) V c).arrAt 2 cfg0.N = qA (V c main_arg0) (V c main_v0) := by
  exact (dat0 (F := Ideal) V c).arrAt_eq_of_cover 2 (qA (V c main_arg0) (V c main_v0)) (fun t _ => query_flushed V c t) query_cover

theorem final_k (c : Dev nD) : (dat0 (F := Ideal) V c).arrAt 3 cfg0.N = kA (V c main_arg0) (V c main_v0) := by
  exact (dat0 (F := Ideal) V c).arrAt_eq_of_cover 3 (kA (V c main_arg0) (V c main_v0)) (fun t _ => key_flushed V c t) key_cover

theorem final_v (c : Dev nD) : (dat0 (F := Ideal) V c).arrAt 4 cfg0.N = vA (V c main_arg0) (V c main_v0) := by
  exact (dat0 (F := Ideal) V c).arrAt_eq_of_cover 4 (vA (V c main_arg0) (V c main_v0)) (fun t _ => value_flushed V c t) value_cover

end Cert.KernelIdeal.Region0

end
-- ==== Proof.KRegion1Pay.lean ====
/-
  The attention body at one entry of its output block.

  From a block of 512 query rows and the blocks of all 2048 key and value rows, each 128 columns wide (two
  heads of 64), the body's value at row r, column cc uses only the 64-column half that owns cc: the scores
  of query row r against every key row in that half, their maximum, the shifted exponentials, the exponentials
  against column cc of the values, divided by the exponentials' sum.
-/
import proofs.«428929_j8203387535468_3_alg».proof.Proof.Gen.KernelIdeal.Frame
import proofs.«428929_j8203387535468_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Cert.Attn

/-- Lane `d` of the 64-column half of a 128-column block that owns column `cc`. -/
def halfCol (cc : Fin 128) (d : Fin 64) : Fin 128 := ⟨cc.val / 64 * 64 + d.val, by omega⟩

/-- Scores of query row `r` of the block against every key row, inside the half that owns column `cc`. -/
def blkScore (q : Vec Ideal S1x512x128 .bf16) (k : Vec Ideal S1x2048x128 .bf16) (r : Fin 512) (cc : Fin 128) : Fin 2048 → EReal :=
  fun lk => ∑ d : Fin 64, q (ix3 (0 : Fin 1) r (halfCol cc d)) * k (ix3 (0 : Fin 1) lk (halfCol cc d))

namespace Pay

/-! ## The two products read at an index -/

theorem lhs_score_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_score_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_score_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_score_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The scores: query row `r` against key row `lk`, summed over the 64 lanes. -/
theorem score_apply (qh : FVec Ideal S512x64 .bf16) (kh : FVec Ideal S2048x64 .bf16) (r : Fin 512) (lk : Fin 2048) :
    matmul dot_S512x64_S2048x64_S512x2048_1_1_0_0_n_n none qh kh (constant (F := Ideal) S512x2048 .f32 0x00000000#32) (ix2 r lk)
      = ∑ d : Fin 64, qh (ix2 r d) * kh (ix2 lk d) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun d _ => ?_
  have hk := ValueIdx.contrEquiv1_symm_val dot_S512x64_S2048x64_S512x2048_1_1_0_0_n_n 64 rfl rfl d
  have el : dot_S512x64_S2048x64_S512x2048_1_1_0_0_n_n.lhsIdx (ix2 r lk) ((ValueIdx.contrEquiv1 dot_S512x64_S2048x64_S512x2048_1_1_0_0_n_n 64 rfl rfl).symm d) = ix2 r d := funext fun a => Fin.ext (by
    match a with
    | ⟨0, _⟩ => exact lhs_score_0 _ _
    | ⟨1, _⟩ => exact (lhs_score_1 _ _).trans hk)
  have er : dot_S512x64_S2048x64_S512x2048_1_1_0_0_n_n.rhsIdx (ix2 r lk) ((ValueIdx.contrEquiv1 dot_S512x64_S2048x64_S512x2048_1_1_0_0_n_n 64 rfl rfl).symm d) = ix2 lk d := funext fun a => Fin.ext (by
    match a with
    | ⟨0, _⟩ => exact rhs_score_0 _ _
    | ⟨1, _⟩ => exact (rhs_score_1 _ _).trans hk)
  rw [el, er]

theorem lhs_wsum_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_wsum_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_wsum_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_wsum_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The weighted sum: row `r` of the weights against column `d` of the values, summed over the 2048 key rows. -/
theorem wsum_apply (p : FVec Ideal S512x2048 .bf16) (vh : FVec Ideal S2048x64 .bf16) (r : Fin 512) (d : Fin 64) :
    matmul dot_S512x2048_S2048x64_S512x64_1_0_0_1_n_n none p vh (constant (F := Ideal) S512x64 .f32 0x00000000#32) (ix2 r d)
      = ∑ lk : Fin 2048, p (ix2 r lk) * vh (ix2 lk d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun lk _ => ?_
  have hk := ValueIdx.contrEquiv1_symm_val dot_S512x2048_S2048x64_S512x64_1_0_0_1_n_n 2048 rfl rfl lk
  have el : dot_S512x2048_S2048x64_S512x64_1_0_0_1_n_n.lhsIdx (ix2 r d) ((ValueIdx.contrEquiv1 dot_S512x2048_S2048x64_S512x64_1_0_0_1_n_n 2048 rfl rfl).symm lk) = ix2 r lk := funext fun a => Fin.ext (by
    match a with
    | ⟨0, _⟩ => exact lhs_wsum_0 _ _
    | ⟨1, _⟩ => exact (lhs_wsum_1 _ _).trans hk)
  have er : dot_S512x2048_S2048x64_S512x64_1_0_0_1_n_n.rhsIdx (ix2 r d) ((ValueIdx.contrEquiv1 dot_S512x2048_S2048x64_S512x64_1_0_0_1_n_n 2048 rfl rfl).symm lk) = ix2 lk d := funext fun a => Fin.ext (by
    match a with
    | ⟨0, _⟩ => exact (rhs_wsum_0 _ _).trans hk
    | ⟨1, _⟩ => exact rhs_wsum_1 _ _)
  rw [el, er]

/-! ## The two row reductions read at a row -/

/-- The word the maximum is folded from is −∞. -/
theorem negInf_word : (FloatOps.ofBits (F := Ideal) .f32 0xFF800000#32) = (⊥ : EReal) := by
  simp [Ideal.ofBits, Ideal.ieee]

/-- The row maximum: the fold of `max` from −∞ over the 2048 entries of row `r`. -/
theorem rowmax_apply (sc : FVec Ideal S512x2048 .f32) (r : Fin 512) :
    multiReduction (F := Ideal) .maximumf [1] S512 sc 0xFF800000#32 reduces_S512x2048_S512 (.inl rfl) rfl (ix1 r)
      = (Finset.univ : Finset (Fin 2048)).fold max ⊥ (fun lk => sc (ix2 r lk)) := by
  refine (Ideal.multiReduction_maximumf_single sc 0xFF800000#32 reduces_S512x2048_S512 (.inl rfl) rfl (ix1 r)).trans ?_
  have e2 : (sc ∘ reduces_S512x2048_S512.lift (ix1 r)) = fun lk : Fin 2048 => sc (ix2 r lk) :=
    funext fun lk => congrArg sc (funext fun a => Fin.ext (by
      match a with
      | ⟨0, _⟩ => rfl
      | ⟨1, _⟩ => rfl))
  rw [negInf_word, e2]
  rfl

/-- The row sum: the sum of the 2048 entries of row `r`. -/
theorem rowsum_apply (e : FVec Ideal S512x2048 .f32) (r : Fin 512) :
    multiReduction (F := Ideal) .add [1] S512 e 0x00000000#32 reduces_S512x2048_S512 (.inl rfl) rfl (ix1 r)
      = ∑ lk : Fin 2048, e (ix2 r lk) := by
  refine (Ideal.multiReduction_add_single e 0x00000000#32 reduces_S512x2048_S512 (.inl rfl) rfl (ix1 r)).trans ?_
  exact Finset.sum_congr rfl fun lk _ => congrArg e (funext fun a => Fin.ext (by
    match a with
    | ⟨0, _⟩ => rfl
    | ⟨1, _⟩ => rfl))

/-! ## A column kept as a unit axis -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row's value kept as a unit column and spread over 2048 columns reads that row's value. -/
theorem keep2048_apply (m : FVec Ideal S512 .f32) (r : Fin 512) (lk : Fin 2048) :
    broadcastTo S512x2048 (shapeCast S512x1 m shapeCasts_S512_S512x1) broadcasts_S512x1_S512x2048 (ix2 r lk) = m (ix1 r) :=
  (broadcastTo_a1_ab_apply _ _ r lk).trans (shapeCast_a_a1_apply _ _ r 0)

/-- The same spread over 64 columns. -/
theorem keep64_apply (m : FVec Ideal S512 .f32) (r : Fin 512) (d : Fin 64) :
    broadcastTo S512x64 (shapeCast S512x1 m shapeCasts_S512_S512x1) broadcasts_S512x1_S512x64 (ix2 r d) = m (ix1 r) :=
  (broadcastTo_a1_ab_apply _ _ r d).trans (shapeCast_a_a1_apply _ _ r 0)

/-! ## One 64-column half of the body -/

/-- The scores of one half: every query row against every key row over the half's 64 lanes. -/
def hScore (qh : FVec Ideal S512x64 .bf16) (kh : FVec Ideal S2048x64 .bf16) : FVec Ideal S512x2048 .f32 :=
  matmul dot_S512x64_S2048x64_S512x2048_1_1_0_0_n_n none qh kh (constant S512x2048 .f32 0x00000000#32)

/-- The exponentials of the scores shifted by their row maxima. -/
def hExp (qh : FVec Ideal S512x64 .bf16) (kh : FVec Ideal S2048x64 .bf16) : FVec Ideal S512x2048 .f32 :=
  exp (subf (hScore qh kh) (broadcastTo S512x2048 (shapeCast S512x1 (multiReduction .maximumf [1] S512 (hScore qh kh) 0xFF800000#32 reduces_S512x2048_S512 (.inl rfl) rfl) shapeCasts_S512_S512x1) broadcasts_S512x1_S512x2048))

/-- The exponentials against the values, divided by the exponentials' row sums. -/
def halfBody (qh : FVec Ideal S512x64 .bf16) (kh vh : FVec Ideal S2048x64 .bf16) : FVec Ideal S512x64 .f32 :=
  divf (matmul dot_S512x2048_S2048x64_S512x64_1_0_0_1_n_n none (truncf .bf16 (hExp qh kh) bitsLt_bf16_f32) vh (constant S512x64 .f32 0x00000000#32))
    (broadcastTo S512x64 (shapeCast S512x1 (multiReduction .add [1] S512 (hExp qh kh) 0x00000000#32 reduces_S512x2048_S512 (.inl rfl) rfl) shapeCasts_S512_S512x1) broadcasts_S512x1_S512x64)

/-- The scores of row `r` of one half, as a function of the key row. -/
def hRow (qh : FVec Ideal S512x64 .bf16) (kh : FVec Ideal S2048x64 .bf16) (r : Fin 512) : Fin 2048 → EReal :=
  fun lk => ∑ d : Fin 64, qh (ix2 r d) * kh (ix2 lk d)

theorem hScore_apply (qh : FVec Ideal S512x64 .bf16) (kh : FVec Ideal S2048x64 .bf16) (r : Fin 512) (lk : Fin 2048) :
    hScore qh kh (ix2 r lk) = hRow qh kh r lk :=
  score_apply qh kh r lk

theorem hExp_apply (qh : FVec Ideal S512x64 .bf16) (kh : FVec Ideal S2048x64 .bf16) (r : Fin 512) (lk : Fin 2048) :
    hExp qh kh (ix2 r lk) = rowExp (hRow qh kh r) lk := by
  have hs : (fun lk' : Fin 2048 => hScore qh kh (ix2 r lk')) = hRow qh kh r := funext fun lk' => hScore_apply qh kh r lk'
  show Ideal.exp (hScore qh kh (ix2 r lk) - broadcastTo S512x2048 (shapeCast S512x1 (multiReduction (F := Ideal) .maximumf [1] S512 (hScore qh kh) 0xFF800000#32 reduces_S512x2048_S512 (.inl rfl) rfl) shapeCasts_S512_S512x1) broadcasts_S512x1_S512x2048 (ix2 r lk)) = Ideal.exp (hRow qh kh r lk - rowMax (hRow qh kh r))
  rw [keep2048_apply, rowmax_apply, hs, hScore_apply]
  rfl

/-- One half at row `r`, lane `d`: the softmax of the row's scores against lane `d` of the values, the division done last. -/
theorem halfBody_apply (qh : FVec Ideal S512x64 .bf16) (kh vh : FVec Ideal S2048x64 .bf16) (r : Fin 512) (d : Fin 64) :
    halfBody qh kh vh (ix2 r d)
      = Ideal.div (∑ lk : Fin 2048, rowExp (hRow qh kh r) lk * vh (ix2 lk d)) (rowDen (hRow qh kh r)) := by
  unfold halfBody
  rw [divf_apply, keep64_apply, rowsum_apply, wsum_apply]
  refine congrArg₂ Ideal.div (Finset.sum_congr rfl fun lk _ => ?_) (Finset.sum_congr rfl fun lk _ => hExp_apply qh kh r lk)
  rw [truncf_apply, hExp_apply]

/-! ## The halves of the three blocks -/

/-- Lane `d` of the query block's half at column offset `o` is the block's entry at column `o + d`. -/
theorem qHalf_apply (o : ℕ) (q : Vec Ideal S1x512x128 .bf16) (h : S512x128.Slices ![0, o] S512x64) (r : Fin 512) (d : Fin 64)
    (c : Fin 128) (hc : c.val = o + d.val) :
    extractStridedSlice S512x64 ![0, o] (shapeCast S512x128 q shapeCasts_S1x512x128_S512x128) h (ix2 r d) = q (ix3 (0 : Fin 1) r c) :=
  (slice2_axis1_apply o _ h r d c hc).trans (shapeCast_1ab_ab_apply _ _ r c)

/-- The same for a key or value block. -/
theorem kvHalf_apply (o : ℕ) (k : Vec Ideal S1x2048x128 .bf16) (h : S2048x128.Slices ![0, o] S2048x64) (lk : Fin 2048) (d : Fin 64)
    (c : Fin 128) (hc : c.val = o + d.val) :
    extractStridedSlice S2048x64 ![0, o] (shapeCast S2048x128 k shapeCasts_S1x2048x128_S2048x128) h (ix2 lk d) = k (ix3 (0 : Fin 1) lk c) :=
  (slice2_axis1_apply o _ h lk d c hc).trans (shapeCast_1ab_ab_apply _ _ lk c)

/-- The half at column offset `o`, read at row `r` and the lane `d` of column `cc = o + d`: the block softmax of the
    scores inside the half that owns `cc`, against column `cc` of the values. -/
theorem half_apply (o : ℕ) (hq : S512x128.Slices ![0, o] S512x64) (hk : S2048x128.Slices ![0, o] S2048x64)
    (q : Vec Ideal S1x512x128 .bf16) (k v : Vec Ideal S1x2048x128 .bf16) (r : Fin 512) (cc : Fin 128) (d : Fin 64)
    (ho : cc.val / 64 * 64 = o) (hd : cc.val = o + d.val) :
    halfBody (extractStridedSlice S512x64 ![0, o] (shapeCast S512x128 q shapeCasts_S1x512x128_S512x128) hq)
        (extractStridedSlice S2048x64 ![0, o] (shapeCast S2048x128 k shapeCasts_S1x2048x128_S2048x128) hk)
        (extractStridedSlice S2048x64 ![0, o] (shapeCast S2048x128 v shapeCasts_S1x2048x128_S2048x128) hk) (ix2 r d)
      = Ideal.div (∑ lk : Fin 2048, rowExp (blkScore q k r cc) lk * v (ix3 (0 : Fin 1) lk cc)) (rowDen (blkScore q k r cc)) := by
  rw [halfBody_apply]
  have hs : hRow (extractStridedSlice S512x64 ![0, o] (shapeCast S512x128 q shapeCasts_S1x512x128_S512x128) hq)
      (extractStridedSlice S2048x64 ![0, o] (shapeCast S2048x128 k shapeCasts_S1x2048x128_S2048x128) hk) r = blkScore q k r cc := by
    funext lk
    unfold hRow blkScore
    refine Finset.sum_congr rfl fun d' _ => ?_
    have hcol : (halfCol cc d').val = o + d'.val := by
      show cc.val / 64 * 64 + d'.val = o + d'.val
      omega
    rw [qHalf_apply o q hq r d' (halfCol cc d') hcol, kvHalf_apply o k hk lk d' (halfCol cc d') hcol]
  rw [hs]
  refine congrArg₂ Ideal.div (Finset.sum_congr rfl fun lk _ => ?_) rfl
  rw [kvHalf_apply o v hk lk d cc hd]

/-- The body is its two halves, at column offsets 0 and 64, side by side. -/
theorem pay2_eq (q : Vec Ideal S1x512x128 .bf16) (k v : Vec Ideal S1x2048x128 .bf16) :
    k1_pay2 (F := Ideal) q k v
      = truncf .bf16 (concatenate S512x128 1
          [⟨S512x64, halfBody (extractStridedSlice S512x64 ![0, 0] (shapeCast S512x128 q shapeCasts_S1x512x128_S512x128) slices_S512x128_o0_0_S512x64)
              (extractStridedSlice S2048x64 ![0, 0] (shapeCast S2048x128 k shapeCasts_S1x2048x128_S2048x128) slices_S2048x128_o0_0_S2048x64)
              (extractStridedSlice S2048x64 ![0, 0] (shapeCast S2048x128 v shapeCasts_S1x2048x128_S2048x128) slices_S2048x128_o0_0_S2048x64)⟩,
           ⟨S512x64, halfBody (extractStridedSlice S512x64 ![0, 64] (shapeCast S512x128 q shapeCasts_S1x512x128_S512x128) slices_S512x128_o0_64_S512x64)
              (extractStridedSlice S2048x64 ![0, 64] (shapeCast S2048x128 k shapeCasts_S1x2048x128_S2048x128) slices_S2048x128_o0_64_S2048x64)
              (extractStridedSlice S2048x64 ![0, 64] (shapeCast S2048x128 v shapeCasts_S1x2048x128_S2048x128) slices_S2048x128_o0_64_S2048x64)⟩]
          concatenates_S512x64_S512x64_S512x128_d1) bitsLt_bf16_f32 := rfl

end Pay

open Pay in
theorem pay_apply (q : Vec Ideal S1x512x128 .bf16) (k v : Vec Ideal S1x2048x128 .bf16) (r : Fin 512) (cc : Fin 128) :
    k1_pay1 (F := Ideal) (k1_pay2 (F := Ideal) q k v) (ix3 (0 : Fin 1) r cc)
      = Ideal.div (∑ lk : Fin 2048, rowExp (blkScore q k r cc) lk * v (ix3 (0 : Fin 1) lk cc)) (rowDen (blkScore q k r cc)) := by
  unfold k1_pay1
  rw [pay2_eq]
  refine (shapeCast_ab_1ab_apply _ _ (0 : Fin 1) r cc).trans ?_
  rw [truncf_apply]
  by_cases hc : cc.val < 64
  · -- the column lies in the first half, at the same lane
    refine (concatenate_pair_apply_left (1 : Fin S512x128.rank) _ _ concatenates_S512x64_S512x64_S512x128_d1 (ix2 r cc) rfl
      (ix2 r (⟨cc.val, hc⟩ : Fin 64)) (fun b => by
        match b with
        | ⟨0, _⟩ => rfl
        | ⟨1, _⟩ => rfl)).trans ?_
    exact half_apply 0 _ _ q k v r cc ⟨cc.val, hc⟩ (by omega) (by show cc.val = 0 + cc.val; omega)
  · -- the column lies in the second half, 64 lanes further on
    have hc' : cc.val - 64 < 64 := by have := cc.isLt; omega
    refine (concatenate_pair_apply_right (1 : Fin S512x128.rank) _ _ concatenates_S512x64_S512x64_S512x128_d1 (ix2 r cc) rfl rfl
      (ix2 r (⟨cc.val - 64, hc'⟩ : Fin 64)) (fun b hb => ?_) ?_).trans ?_
    · match b with
      | ⟨0, _⟩ => rfl
      | ⟨1, _⟩ => exact absurd rfl hb
    · show (cc.val - 64) + 64 = cc.val
      omega
    · exact half_apply 64 _ _ q k v r cc ⟨cc.val - 64, hc'⟩ (by have := cc.isLt; omega) (by show cc.val = 64 + (cc.val - 64); omega)

end Cert.KernelIdeal.Region1

end
-- ==== Proof.KRegion1.lean ====
/-
  The attention region: what its output array holds after the run.

  Grid point (b, jp, qi) loads query rows 512 qi … 512 qi + 511 and all 2048 key and value rows of batch b, in
  the 128 columns of head pair jp, and treats the two 64-column halves as two heads: scores against every key
  row, row maximum, shifted exponentials, their sum, the exponentials against the values, divided by the sum;
  the two halves side by side are block (b, qi, jp) of the output. The blocks tile the array, which is
  therefore `attnArr` of the region's three inputs.
-/
import proofs.«428929_j8203387535468_3_alg».proof.Proof.Gen.KernelIdeal.Frame
import proofs.«428929_j8203387535468_3_alg».proof.Proof.Spec
import proofs.«428929_j8203387535468_3_alg».proof.Proof.KRegion1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Attn

/-! ## One entry of one block -/

/-- The three zero offsets of a whole-buffer access are the zero function. -/
theorem zero_off : (![0, 0, 0] : Fin 3 → Nat) = fun _ => 0 :=
  funext fun a => by match a with | ⟨0, _⟩ => rfl | ⟨1, _⟩ => rfl | ⟨2, _⟩ => rfl

/-- Column `128 jp + cc` of the array lies in the head whose lanes are, inside the block of head pair `jp`,
    the lanes of the half that owns `cc`. -/
theorem head_col (jp : Nat) (hjp : jp < 8) (cc : Fin 128) (d : Fin 64) :
    headCol ⟨jp * 128 + cc.val, by omega⟩ d
      = ⟨jp * 128 + (halfCol cc d).val, by have := (halfCol cc d).isLt; omega⟩ := by
  apply Fin.ext
  show (jp * 128 + cc.val) / 64 * 64 + d.val = jp * 128 + (cc.val / 64 * 64 + d.val)
  omega

/-- The body's value at row `r`, column `cc` of its block, when the three blocks are the rows `512 qi …` of the
    queries and all rows of the keys and values of batch `b`, in the columns `128 jp …`: the attention output at
    `(b, 512 qi + r, 128 jp + cc)`. -/
theorem entry_eq (Q K W : SX.Idx → EReal)
    (q : Vec Ideal S1x512x128 .bf16) (k v : Vec Ideal S1x2048x128 .bf16)
    (b : Fin 2) (qi jp : Nat) (hqi : qi < 4) (hjp : jp < 8)
    (hq : ∀ (r : Fin 512) (c' : Fin 128), q (ix3 (0 : Fin 1) r c')
      = Q (ix3 b (⟨qi * 512 + r.val, by omega⟩ : Fin 2048) (⟨jp * 128 + c'.val, by omega⟩ : Fin 1024)))
    (hk : ∀ (lk : Fin 2048) (c' : Fin 128), k (ix3 (0 : Fin 1) lk c')
      = K (ix3 b lk (⟨jp * 128 + c'.val, by omega⟩ : Fin 1024)))
    (hv : ∀ (lk : Fin 2048) (c' : Fin 128), v (ix3 (0 : Fin 1) lk c')
      = W (ix3 b lk (⟨jp * 128 + c'.val, by omega⟩ : Fin 1024)))
    (r : Fin 512) (cc : Fin 128) :
    k1_pay1 (F := Ideal) (k1_pay2 (F := Ideal) q k v) (ix3 (0 : Fin 1) r cc)
      = attnA Q K W b ⟨qi * 512 + r.val, by omega⟩ ⟨jp * 128 + cc.val, by omega⟩ := by
  have hs : blkScore q k r cc = scoreA Q K b ⟨jp * 128 + cc.val, by omega⟩ ⟨qi * 512 + r.val, by omega⟩ := by
    funext lk
    show (∑ d : Fin 64, q (ix3 (0 : Fin 1) r (halfCol cc d)) * k (ix3 (0 : Fin 1) lk (halfCol cc d))) = _
    refine Finset.sum_congr rfl fun d _ => ?_
    rw [hq, hk, head_col jp hjp cc d]
  rw [pay_apply, hs]
  unfold attnA
  congr 1
  refine Finset.sum_congr rfl fun lk _ => ?_
  rw [hv]

/-! ## The printed index maps over the grid -/

/-- Decided once over the 64 grid points: the query block moves with the output block; the key and value blocks
    share its batch and column block and always start at row 0; the output's block indices stay in range. -/
theorem idx_facts : ∀ t : Fin cfg1.N,
      win1_0.index t (0 : Fin 3) = win1_3.index t (0 : Fin 3)
    ∧ win1_0.index t (1 : Fin 3) = win1_3.index t (1 : Fin 3)
    ∧ win1_0.index t (2 : Fin 3) = win1_3.index t (2 : Fin 3)
    ∧ win1_1.index t (0 : Fin 3) = win1_3.index t (0 : Fin 3)
    ∧ win1_1.index t (1 : Fin 3) = 0
    ∧ win1_1.index t (2 : Fin 3) = win1_3.index t (2 : Fin 3)
    ∧ win1_2.index t (0 : Fin 3) = win1_3.index t (0 : Fin 3)
    ∧ win1_2.index t (1 : Fin 3) = 0
    ∧ win1_2.index t (2 : Fin 3) = win1_3.index t (2 : Fin 3)
    ∧ win1_3.index t (0 : Fin 3) ≤ 1
    ∧ win1_3.index t (1 : Fin 3) ≤ 3
    ∧ win1_3.index t (2 : Fin 3) ≤ 7 :=
  (by decide +kernel : ∀ t : Fin grid1.N, _)

/-- Every block of the output array is some grid point's. -/
theorem idx_onto : ∀ (q0 : Fin 2) (q1 : Fin 4) (q2 : Fin 8), ∃ t : Fin cfg1.N,
    win1_3.index t = ![q0.val, q1.val, q2.val] :=
  (by decide +kernel : ∀ (q0 : Fin 2) (q1 : Fin 4) (q2 : Fin 8), ∃ t : Fin grid1.N,
    win1_3.index t = ![q0.val, q1.val, q2.val])

-- the buffer contents the region is entered with: a parameter, as in the frame
variable (V : (c : Dev nD) → (b : Ref sig .tc) → Buf (Elt Ideal) ((c : Thread nD τ).loc b))

/-! ## What a point writes back -/

/-- Point `t` writes back block `t` of the attention array of the region's three inputs. -/
theorem flushed_eq (c : Dev nD) (t : Fin cfg1.N) :
    (dat1 (F := Ideal) V c).flushed 3 t
      = ((cfg1.win 3).blk t).view.read (Elt Ideal) (attnArr (V c main_v2_0) (V c main_v2_1) (V c main_v2_2)) := by
  show (cfg1.win 3).cut (grid1.coords t) ((dat1 V c).after 3 t) = _
  rw [after1_3]
  unfold out1_3
  rw [View.canon_unit_zero zero_off]
  simp only [View.ld_unit_zero (S := S1x512x128) zero_off, View.ld_unit_zero (S := S1x2048x128) zero_off]
  obtain ⟨e00, e01, e02, e10, e11, e12, e20, e21, e22, u0, u1, u2⟩ := idx_facts t
  obtain ⟨b, hb⟩ : ∃ b : Fin 2, win1_3.index t (0 : Fin 3) = b.val :=
    ⟨⟨win1_3.index t (0 : Fin 3), by omega⟩, rfl⟩
  have hqi : win1_3.index t (1 : Fin 3) < 4 := by omega
  have hjp : win1_3.index t (2 : Fin 3) < 8 := by omega
  funext j
  obtain ⟨z, r, cc, rfl⟩ : ∃ (z : Fin 1) (r : Fin 512) (cc : Fin 128), j = ix3 z r cc := ⟨j 0, j 1, j 2, eq_ix3 j⟩
  obtain rfl : z = 0 := Subsingleton.elim _ _
  refine (entry_eq (V c main_v2_0) (V c main_v2_1) (V c main_v2_2) (iblk1 V c 0 t) (iblk1 V c 1 t) (iblk1 V c 2 t)
    b (win1_3.index t (1 : Fin 3)) (win1_3.index t (2 : Fin 3)) hqi hjp ?_ ?_ ?_ r cc).trans ?_
  · intro r c'
    show V c main_v2_0 (((cfg1.win 0).blk t).view.emb (ix3 (0 : Fin 1) r c')) = V c main_v2_0 _
    refine congrArg (V c main_v2_0) (funext fun a => Fin.ext ?_)
    match a with
    | ⟨0, _⟩ => show win1_0.index t (0 : Fin 3) * 1 + 1 * (0 : Fin 1).val = b.val; omega
    | ⟨1, _⟩ => show win1_0.index t (1 : Fin 3) * 512 + 1 * r.val = win1_3.index t (1 : Fin 3) * 512 + r.val; omega
    | ⟨2, _⟩ => show win1_0.index t (2 : Fin 3) * 128 + 1 * c'.val = win1_3.index t (2 : Fin 3) * 128 + c'.val; omega
  · intro lk c'
    show V c main_v2_1 (((cfg1.win 1).blk t).view.emb (ix3 (0 : Fin 1) lk c')) = V c main_v2_1 _
    refine congrArg (V c main_v2_1) (funext fun a => Fin.ext ?_)
    match a with
    | ⟨0, _⟩ => show win1_1.index t (0 : Fin 3) * 1 + 1 * (0 : Fin 1).val = b.val; omega
    | ⟨1, _⟩ => show win1_1.index t (1 : Fin 3) * 2048 + 1 * lk.val = lk.val; omega
    | ⟨2, _⟩ => show win1_1.index t (2 : Fin 3) * 128 + 1 * c'.val = win1_3.index t (2 : Fin 3) * 128 + c'.val; omega
  · intro lk c'
    show V c main_v2_2 (((cfg1.win 2).blk t).view.emb (ix3 (0 : Fin 1) lk c')) = V c main_v2_2 _
    refine congrArg (V c main_v2_2) (funext fun a => Fin.ext ?_)
    match a with
    | ⟨0, _⟩ => show win1_2.index t (0 : Fin 3) * 1 + 1 * (0 : Fin 1).val = b.val; omega
    | ⟨1, _⟩ => show win1_2.index t (1 : Fin 3) * 2048 + 1 * lk.val = lk.val; omega
    | ⟨2, _⟩ => show win1_2.index t (2 : Fin 3) * 128 + 1 * c'.val = win1_3.index t (2 : Fin 3) * 128 + c'.val; omega
  · show _ = attnArr (V c main_v2_0) (V c main_v2_1) (V c main_v2_2) (((cfg1.win 3).blk t).view.emb (ix3 (0 : Fin 1) r cc))
    unfold attnArr
    have h0 : ((cfg1.win 3).blk t).view.emb (ix3 (0 : Fin 1) r cc) 0 = b := by
      apply Fin.ext
      show win1_3.index t (0 : Fin 3) * 1 + 1 * (0 : Fin 1).val = b.val; omega
    have h1 : ((cfg1.win 3).blk t).view.emb (ix3 (0 : Fin 1) r cc) 1
        = (⟨win1_3.index t (1 : Fin 3) * 512 + r.val, by omega⟩ : Fin 2048) := by
      apply Fin.ext
      show win1_3.index t (1 : Fin 3) * 512 + 1 * r.val = win1_3.index t (1 : Fin 3) * 512 + r.val; omega
    have h2 : ((cfg1.win 3).blk t).view.emb (ix3 (0 : Fin 1) r cc) 2
        = (⟨win1_3.index t (2 : Fin 3) * 128 + cc.val, by omega⟩ : Fin 1024) := by
      apply Fin.ext
      show win1_3.index t (2 : Fin 3) * 128 + 1 * cc.val = win1_3.index t (2 : Fin 3) * 128 + cc.val; omega
    rw [h0, h1, h2]

/-! ## The blocks tile the array -/

/-- An index of the array is in point `t`'s block iff each coordinate is in the block's range on its axis. -/
theorem mem_blk (t : Fin cfg1.N) (i : S2x2048x1024.Idx) :
    i ∈ ((cfg1.win 3).blk t).view.set ↔ ∀ a : Fin 3, win1_3.index t a * S1x512x128.size a ≤ (i a).val
      ∧ (i a).val < win1_3.index t a * S1x512x128.size a + S1x512x128.size a := by
  show i ∈ ((View.whole main_v3).slice (win1_3.rect t)).set ↔ _
  rw [View.set_slice_whole, Rect.mem_set_unit]
  exact Iff.rfl

/-- Entry `(b, l, j)` of the array is in the block of the point whose output block is `(b, l / 512, j / 128)`. -/
theorem cover (i : S2x2048x1024.Idx) :
    ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, by omega⟩ ⟨(i 1).val / 512, by omega⟩ ⟨(i 2).val / 128, by omega⟩
  have q0 : win1_3.index t (0 : Fin 3) = (i 0).val := congrFun ht 0
  have q1 : win1_3.index t (1 : Fin 3) = (i 1).val / 512 := congrFun ht 1
  have q2 : win1_3.index t (2 : Fin 3) = (i 2).val / 128 := congrFun ht 2
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 512 ≤ (i 1).val ∧ (i 1).val < win1_3.index t (1 : Fin 3) * 512 + 512
    omega
  | ⟨2, _⟩ =>
    show win1_3.index t (2 : Fin 3) * 128 ≤ (i 2).val ∧ (i 2).val < win1_3.index t (2 : Fin 3) * 128 + 128
    omega

theorem final_o (c : Dev nD) :
    (dat1 (F := Ideal) V c).arrAt 3 cfg1.N = attnArr (V c main_v2_0) (V c main_v2_1) (V c main_v2_2) :=
  (dat1 (F := Ideal) V c).arrAt_eq_of_cover 3 (attnArr (V c main_v2_0) (V c main_v2_1) (V c main_v2_2))
    (fun t _ => flushed_eq V c t) cover

end Cert.KernelIdeal.Region1

end
-- ==== Proof.KRegion2.lean ====
/-
  The output-projection region: what its output array holds after the run.

  Grid point i loads rows 512 i … 512 i + 511 of the flattened activations, the whole output weight and the
  bias row, and stores activations · weightᵀ + bias as block i of the output. The blocks tile the array, which
  is therefore `outArr` of the region's three inputs.
-/
import proofs.«428929_j8203387535468_3_alg».proof.Proof.Gen.KernelIdeal.Frame
import proofs.«428929_j8203387535468_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Attn

/-! ## The contraction's operand indices, axis by axis

Output index `(r, e)` and contraction index `k`: the activations are read at `(r, k)`, the weight at `(e, k)`. -/

theorem lhs_proj_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_proj_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_proj_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_proj_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product of a block of activations with the transposed weight, into the zero accumulator, at `(r, e)`. -/
theorem matmul_proj_apply (a : FVec Ideal S512x1024 .bf16) (w : FVec Ideal S1024x1024 .bf16) (r : Fin 512) (e : Fin 1024) :
    FloatOps.matmul dot_S512x1024_S1024x1024_S512x1024_1_1_0_0_n_n none a w (constant (F := Ideal) S512x1024 .f32 0x00000000#32) (ix2 r e)
      = ∑ k : Fin 1024, a (ix2 r k) * w (ix2 e k) := by
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 r e) ((ValueIdx.contrEquiv1 dot_S512x1024_S1024x1024_S512x1024_1_1_0_0_n_n 1024 rfl rfl).symm k) = ix2 r k := funext fun ax => Fin.ext (by
    match ax with
    | ⟨0, _⟩ => exact lhs_proj_0 _ _
    | ⟨1, _⟩ => exact (lhs_proj_1 _ _).trans hk)
  have er : dot_S512x1024_S1024x1024_S512x1024_1_1_0_0_n_n.rhsIdx (ix2 r e) ((ValueIdx.contrEquiv1 dot_S512x1024_S1024x1024_S512x1024_1_1_0_0_n_n 1024 rfl rfl).symm k) = ix2 e k := funext fun ax => Fin.ext (by
    match ax with
    | ⟨0, _⟩ => exact rhs_proj_0 _ _
    | ⟨1, _⟩ => exact (rhs_proj_1 _ _).trans hk)
  rw [el, er]

/-- What the body stores at `(r, e)` of its block: the row of activations against row `e` of the weight, plus the bias at `e`. -/
theorem pay_apply (x0 : Vec Ideal S512x1024 .bf16) (x1 : Vec Ideal S1024x1024 .bf16) (x2 : Vec Ideal S1x1024 .f32)
    (r : Fin 512) (e : Fin 1024) :
    k2_pay1 (F := Ideal) x0 x1 x2 (ix2 r e) = (∑ k : Fin 1024, x0 (ix2 r k) * x1 (ix2 e k)) + x2 (ix2 (0 : Fin 1) e) := by
  unfold k2_pay1
  rw [shapeCast_self, shapeCast_self, shapeCast_self]
  refine (addf_apply _ _ _).trans ?_
  rw [broadcastTo_1b_ab_apply]
  exact congrArg (· + x2 (ix2 (0 : Fin 1) e)) (matmul_proj_apply x0 x1 r e)

/-! ## From the blocks to the array -/

-- the buffer contents the region is entered with: a parameter, as in the frame
variable (V : (c : Dev nD) → (b : Ref sig .tc) → Buf (Elt Ideal) ((c : Thread nD τ).loc b))

theorem off_zero : (![0, 0] : Fin 2 → Nat) = fun _ => 0 := funext fun a => by fin_cases a <;> rfl

/-- The block index maps over the grid: the activations' block moves with the output's down the rows, the weight and
    the bias stay at their one block, and no block has a column offset. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every block of rows of the output is some point's. -/
theorem idx_onto : ∀ q : Fin 8, ∃ t : Fin cfg2.N, win2_3.index t = ![q.val, 0] :=
  (by decide +kernel : ∀ q : Fin 8, ∃ t : Fin grid2.N, win2_3.index t = ![q.val, 0])

/-- A block whose rows are rows of `A` (row `y 0` of the block is row `i 0` of `A`), against the whole weight and the
    bias row, holds at `y` the projection of `A` at `i`, when `i` and `y` name the same column. -/
theorem block_value (x0 : Vec Ideal S512x1024 .bf16) (x1 : Vec Ideal S1024x1024 .bf16) (x2 : Vec Ideal S1x1024 .f32)
    (A : SF.Idx → EReal) (W : SO.Idx → EReal) (B : SR.Idx → EReal) (i : SF.Idx) (y : S512x1024.Idx)
    (h0 : ∀ k : Fin 1024, x0 (ix2 (y 0) k) = A (ix2 (i 0) k)) (h1 : ∀ j, x1 j = W j) (h2 : ∀ j, x2 j = B j)
    (hc : (i 1).val = (y 1).val) :
    k2_pay1 (F := Ideal) x0 x1 x2 y = outArr A W B i := by
  obtain ⟨r, e, rfl⟩ : ∃ (r : Fin 512) (e : Fin 1024), y = ix2 r e := ⟨y 0, y 1, eq_ix2 y⟩
  rw [pay_apply]
  have he : i 1 = e := Fin.ext hc
  show _ = (∑ j : Fin 1024, A (ix2 (i 0) j) * W (ix2 (i 1) j)) + B (ix2 (0 : Fin 1) (i 1))
  rw [he, h2]
  exact congrArg (· + B (ix2 (0 : Fin 1) e)) (Finset.sum_congr rfl fun k _ => by rw [h0 k, h1])

/-- What point `t` writes back is block `t` of the projection of the region's three inputs. -/
theorem flushed_eq (c : Dev nD) (t : Fin cfg2.N) :
    (dat2 (F := Ideal) V c).flushed 3 t
      = ((cfg2.win 3).blk t).view.read (Elt Ideal) (outArr (V c main_v4) (V c main_v1) (V c main_v5)) := by
  show (cfg2.win 3).cut (grid2.coords t) ((dat2 V c).after 3 t) = _
  rw [after2_3]
  unfold out2_3
  rw [View.canon_unit_zero off_zero]
  simp only [View.ld_unit_zero (S := S512x1024) off_zero, View.ld_unit_zero (S := S1024x1024) off_zero, View.ld_unit_zero (S := S1x1024) off_zero]
  obtain ⟨e0, e1, e2, e3, e4, e5, e6, e7⟩ := idx_facts t
  funext y
  refine block_value (iblk2 V c 0 t) (iblk2 V c 1 t) (iblk2 V c 2 t) (V c main_v4) (V c main_v1) (V c main_v5)
    (((cfg2.win 3).blk t).view.emb y) y (fun k => ?_) (fun j => ?_) (fun j => ?_) ?_
  · show V c main_v4 (((cfg2.win 0).blk t).view.emb (ix2 (y 0) k)) = V c main_v4 (ix2 ((((cfg2.win 3).blk t).view.emb y) 0) k)
    refine congrArg (V c main_v4) (funext fun a => Fin.ext ?_)
    match a with
    | ⟨0, _⟩ => show win2_0.index t (0 : Fin 2) * 512 + 1 * (y 0).val = win2_3.index t (0 : Fin 2) * 512 + 1 * (y 0).val; omega
    | ⟨1, _⟩ => show win2_0.index t (1 : Fin 2) * 1024 + 1 * k.val = k.val; omega
  · show V c main_v1 (((cfg2.win 1).blk t).view.emb j) = V c main_v1 j
    refine congrArg (V c main_v1) (funext fun a => Fin.ext ?_)
    match a with
    | ⟨0, _⟩ => show win2_1.index t (0 : Fin 2) * 1024 + 1 * (j 0).val = (j 0).val; omega
    | ⟨1, _⟩ => show win2_1.index t (1 : Fin 2) * 1024 + 1 * (j 1).val = (j 1).val; omega
  · show V c main_v5 (((cfg2.win 2).blk t).view.emb j) = V c main_v5 j
    refine congrArg (V c main_v5) (funext fun a => Fin.ext ?_)
    match a with
    | ⟨0, _⟩ => show win2_2.index t (0 : Fin 2) * 1 + 1 * (j 0).val = (j 0).val; omega
    | ⟨1, _⟩ => show win2_2.index t (1 : Fin 2) * 1024 + 1 * (j 1).val = (j 1).val; omega
  · show win2_3.index t (1 : Fin 2) * 1024 + 1 * (y 1).val = (y 1).val; omega

/-- An index of the output array is in point `t`'s block iff each coordinate is in the block's range on its axis. -/
theorem mem_blk (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v6).slice (win2_3.rect t)).set ↔ _
  rw [View.set_slice_whole, Rect.mem_set_unit]
  exact Iff.rfl

/-- The blocks fill the array: row `r` lies in the block of point `r / 512`. -/
theorem cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The output array after the run is the projection of the region's three inputs. -/
theorem final_y (c : Dev nD) :
    (dat2 (F := Ideal) V c).arrAt 3 cfg2.N = outArr (V c main_v4) (V c main_v1) (V c main_v5) := by
  exact (dat2 (F := Ideal) V c).arrAt_eq_of_cover 3 (outArr (V c main_v4) (V c main_v1) (V c main_v5))
    (fun t _ => flushed_eq V c t) cover

end Cert.KernelIdeal.Region2

end
-- ==== Proof.KChain.lean ====
/-
  The result buffer after the run, as one function of the four arguments.

  The fold of @main through its segments, read backwards from the result: the last reshape of the output
  projection's array; that array from the flattened attention output, the converted output weight and the bias
  as a row; the attention output from the three projected arrays; those from the activations and the converted
  fused weight. A conversion of float format is the identity on the extended reals, and a reshape keeps the
  row-major position, so (b, l) of [2, 2048, ·] is row 2048 b + l of [4096, ·].
-/
import proofs.«428929_j8203387535468_3_alg».proof.Proof.Gen.KernelIdeal.Frame
import proofs.«428929_j8203387535468_3_alg».proof.Proof.Spec
import proofs.«428929_j8203387535468_3_alg».proof.Proof.KRegion0
import proofs.«428929_j8203387535468_3_alg».proof.Proof.KRegion1
import proofs.«428929_j8203387535468_3_alg».proof.Proof.KRegion2
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Chain

open Cert.KernelIdeal Cert.KernelIdeal.Gen Idealize.ShloMosaic Idealize.ShloMosaic.TcCoe Idealize.ShloMosaic.ValueIdx Idealize.SL.Sem
open Idealize.ShloMosaic.StableHlo
open Cert.Attn

variable (m : (ℓ : Loc nD τ sig) → Buf (Elt Ideal) ℓ) (ρ : Dev nD → PrngReg)

/-! ## The four arguments and the two converted weights at each boundary -/

abbrev aX (c : Dev nD) : Buf (Elt Ideal) ((c : Thread nD τ).loc main_arg0) := m ((c : Thread nD τ).loc main_arg0)
abbrev aW (c : Dev nD) : Buf (Elt Ideal) ((c : Thread nD τ).loc main_arg1) := m ((c : Thread nD τ).loc main_arg1)
abbrev aO (c : Dev nD) : Buf (Elt Ideal) ((c : Thread nD τ).loc main_arg2) := m ((c : Thread nD τ).loc main_arg2)
abbrev aB (c : Dev nD) : Buf (Elt Ideal) ((c : Thread nD τ).loc main_arg3) := m ((c : Thread nD τ).loc main_arg3)

/-- Entering the projection region the activations are the launched ones. -/
theorem V1_x (c : Dev nD) : V1 m ρ c main_arg0 = aX m c := by
  show StableHlo.after hostOps0 (W0 m ρ c) (Proc.devRef .tc main_arg0) = _
  after_results

/-- and the fused weight, converted in format, is the launched one. -/
theorem V1_w (c : Dev nD) : V1 m ρ c main_v0 = aW m c := by
  show StableHlo.after hostOps0 (W0 m ρ c) (Proc.devRef .tc main_v0) = _
  after_results; rfl

/-- The converted output weight likewise. -/
theorem V1_wo (c : Dev nD) : V1 m ρ c main_v1 = aO m c := by
  show StableHlo.after hostOps0 (W0 m ρ c) (Proc.devRef .tc main_v1) = _
  after_results; rfl

theorem V1_b (c : Dev nD) : V1 m ρ c main_arg3 = aB m c := by
  show StableHlo.after hostOps0 (W0 m ρ c) (Proc.devRef .tc main_arg3) = _
  after_results

/-! ## After the projection region -/

theorem V2_q (c : Dev nD) : V2 m ρ c main_v2_0 = qA (aX m c) (aW m c) :=
  (hF0 m ρ c 2).symm.trans ((Region0.final_q (V1 m ρ) c).trans (by rw [V1_x, V1_w]))
theorem V2_k (c : Dev nD) : V2 m ρ c main_v2_1 = kA (aX m c) (aW m c) :=
  (hF0 m ρ c 3).symm.trans ((Region0.final_k (V1 m ρ) c).trans (by rw [V1_x, V1_w]))
theorem V2_v (c : Dev nD) : V2 m ρ c main_v2_2 = vA (aX m c) (aW m c) :=
  (hF0 m ρ c 4).symm.trans ((Region0.final_v (V1 m ρ) c).trans (by rw [V1_x, V1_w]))

/-! ## After the attention region -/

theorem V3_o (c : Dev nD) : V3 m ρ c main_v3 = attnArr (qA (aX m c) (aW m c)) (kA (aX m c) (aW m c)) (vA (aX m c) (aW m c)) :=
  (hF1 m ρ c 3).symm.trans ((Region1.final_o (V2 m ρ) c).trans (by rw [V2_q, V2_k, V2_v]))

theorem V3_wo (c : Dev nD) : V3 m ρ c main_v1 = aO m c :=
  (W3_of_ne m ρ c main_v1 (by decide)).trans ((W2_of_ne m ρ c main_v1 (by decide)).trans (V1_wo m ρ c))

theorem V3_b (c : Dev nD) : V3 m ρ c main_arg3 = aB m c :=
  (W3_of_ne m ρ c main_arg3 (by decide)).trans ((W2_of_ne m ρ c main_arg3 (by decide)).trans (V1_b m ρ c))

/-! ## Entering the output-projection region: the attention output flattened, the bias as a row -/

theorem V4_o (c : Dev nD) : V4 m ρ c main_v4 = shapeCast S4096x1024 (V3 m ρ c main_v3) shapeCasts_S2x2048x1024_S4096x1024 := by
  show StableHlo.after hostOps2 (W3 m ρ c) (Proc.devRef .tc main_v4) = _
  after_results
  rfl

theorem V4_b (c : Dev nD) : V4 m ρ c main_v5 = shapeCast S1x1024 (V3 m ρ c main_arg3) shapeCasts_S1024_S1x1024 := by
  show StableHlo.after hostOps2 (W3 m ρ c) (Proc.devRef .tc main_v5) = _
  after_results
  rfl

theorem V4_wo (c : Dev nD) : V4 m ρ c main_v1 = V3 m ρ c main_v1 := by
  show StableHlo.after hostOps2 (W3 m ρ c) (Proc.devRef .tc main_v1) = _
  after_results

/-! ## After it, and the last reshape -/

theorem V5_y (c : Dev nD) : V5 m ρ c main_v6 = outArr (V4 m ρ c main_v4) (V4 m ρ c main_v1) (V4 m ρ c main_v5) :=
  (hF2 m ρ c 3).symm.trans (Region2.final_y (V4 m ρ) c)

theorem W6_y (c : Dev nD) : W6 m ρ c (Proc.devRef .tc main_v7)
    = shapeCast S2x2048x1024 (V5 m ρ c main_v6) shapeCasts_S4096x1024_S2x2048x1024 := by
  show StableHlo.after hostOps3 (W5 m ρ c) (Proc.devRef .tc main_v7) = _
  after_results
  rfl

/-! ## Read at an index -/

/-- Row `2048 b + l` of the flattened array. -/
def flatRow (b : Fin 2) (l : Fin 2048) : Fin 4096 := ⟨b.val * 2048 + l.val, by omega⟩

/-- The four arguments and the output-projection region's three inputs, each named at its literal type. -/
abbrev xX (c : Dev nD) : SX.Idx → EReal := aX m c
abbrev xW (c : Dev nD) : SW.Idx → EReal := aW m c
abbrev xO (c : Dev nD) : SO.Idx → EReal := aO m c
abbrev xB (c : Dev nD) : SB.Idx → EReal := aB m c
abbrev fO (c : Dev nD) : SF.Idx → EReal := V4 m ρ c main_v4
abbrev fW (c : Dev nD) : SO.Idx → EReal := V4 m ρ c main_v1
abbrev fB (c : Dev nD) : SR.Idx → EReal := V4 m ρ c main_v5

/-- The flattened attention output at row `2048 b + l` is the attention output at `(b, l)`. -/
theorem fO_apply (c : Dev nD) (b : Fin 2) (l : Fin 2048) (j : Fin 1024) :
    fO m ρ c (ix2 (flatRow b l) j)
      = attnA (qA (xX m c) (xW m c)) (kA (xX m c) (xW m c)) (vA (xX m c) (xW m c)) b l j := by
  show (V4 m ρ c main_v4 : S4096x1024.Idx → EReal) (ix2 (flatRow b l) j) = _
  rw [V4_o, shapeCast_apply (V3 m ρ c main_v3) shapeCasts_S2x2048x1024_S4096x1024 (ix2 (flatRow b l) j) (ix3 b l j)
    (by show (S2x2048x1024.rowMajor (ix3 b l j)).val = (S4096x1024.rowMajor (ix2 (flatRow b l) j)).val
        rw [Shape.rowMajor_val_two, Shape.rowMajor_val_three]
        show (b.val * 2048 + l.val) * 1024 + j.val = (b.val * 2048 + l.val) * 1024 + j.val
        rfl), V3_o]
  rfl

theorem fW_eq (c : Dev nD) : fW m ρ c = xO m c := by
  show V4 m ρ c main_v1 = aO m c
  rw [V4_wo, V3_wo]

/-- The bias as a row, at column `e`, is the bias at `e`. -/
theorem fB_apply (c : Dev nD) (e : Fin 1024) : fB m ρ c (ix2 (0 : Fin 1) e) = xB m c (ix1 e) := by
  show (V4 m ρ c main_v5 : S1x1024.Idx → EReal) (ix2 (0 : Fin 1) e) = _
  rw [V4_b, shapeCast_apply (V3 m ρ c main_arg3) shapeCasts_S1024_S1x1024 (ix2 (0 : Fin 1) e) (ix1 e)
    (by show (S1024.rowMajor (ix1 e)).val = (S1x1024.rowMajor (ix2 (0 : Fin 1) e)).val
        rw [Shape.rowMajor_val_two, Shape.rowMajor_val_one]
        show e.val = 0 * 1024 + e.val
        omega), V3_b]

theorem result_eq (c : Dev nD) :
    W6 (F := Ideal) m ρ c (Proc.devRef .tc main_v7)
      = outKArr (m ((c.tc : Thread nD τ).loc main_arg0)) (m ((c.tc : Thread nD τ).loc main_arg1))
          (m ((c.tc : Thread nD τ).loc main_arg2)) (m ((c.tc : Thread nD τ).loc main_arg3)) := by
  rw [W6_y]
  funext i
  obtain ⟨b, l, e, rfl⟩ : ∃ (b : Fin 2) (l : Fin 2048) (e : Fin 1024), i = ix3 b l e := ⟨i 0, i 1, i 2, eq_ix3 i⟩
  rw [shapeCast_apply (V5 m ρ c main_v6) shapeCasts_S4096x1024_S2x2048x1024 (ix3 b l e) (ix2 (flatRow b l) e)
    (by show (S4096x1024.rowMajor (ix2 (flatRow b l) e)).val = (S2x2048x1024.rowMajor (ix3 b l e)).val
        rw [Shape.rowMajor_val_two, Shape.rowMajor_val_three]
        show (b.val * 2048 + l.val) * 1024 + e.val = (b.val * 2048 + l.val) * 1024 + e.val
        rfl)]
  rw [V5_y]
  show outA (fO m ρ c) (fW m ρ c) (fB m ρ c) (flatRow b l) e = outK (xX m c) (xW m c) (xO m c) (xB m c) b l e
  unfold outA outK
  rw [fB_apply, fW_eq]
  exact congrArg (· + xB m c (ix1 e)) (Finset.sum_congr rfl fun j _ => by rw [fO_apply])

end Cert.KernelIdeal.Chain

end
-- ==== Proof.RefValue.lean ====
/-
  The reference, read at an index.

  Its 36 host operations, composed: the fused projection, reshaped to [2, 2048, 3, 16, 64] and cut into the
  query, key and value sections with heads moved in front of rows; per head the scores (times the scale), the
  row maximum, shifted exponentials, their sum, each exponential divided by it, the weights against the values;
  heads moved back behind rows and flattened; the output projection and the bias. Index by index that is `outR`.
-/
import proofs.«428929_j8203387535468_3_alg».proof.Proof.Gen.ReferenceIdeal.Read
import proofs.«428929_j8203387535468_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open Cert.Attn

/-! ## Index arithmetic of the layout operations

Moving heads in front of rows reads (b, h, l, d) at (b, l, h, d). Dropping the unit section axis reads (b, l, h, d) of
[2, 2048, 16, 64] at (b, l, 0, h, d) of [2, 2048, 1, 16, 64]; the slice of section s reads that at (b, l, s, h, d);
and (b, l, s, h, d) of the five-axis view is column 1024 s + 64 h + d of row (b, l) of the fused projection. -/

theorem tr4 (b : Fin 2) (h : Fin 16) (l : Fin 2048) (d : Fin 64) :
    idx_main_v4 (ix4 b h l d) = ix4 b l h d :=
  funext fun a => Fin.ext (by match a with | ⟨0, _⟩ => rfl | ⟨1, _⟩ => rfl | ⟨2, _⟩ => rfl | ⟨3, _⟩ => rfl)

theorem tr7 (b : Fin 2) (h : Fin 16) (l : Fin 2048) (d : Fin 64) :
    idx_main_v7 (ix4 b h l d) = ix4 b l h d :=
  funext fun a => Fin.ext (by match a with | ⟨0, _⟩ => rfl | ⟨1, _⟩ => rfl | ⟨2, _⟩ => rfl | ⟨3, _⟩ => rfl)

theorem tr10 (b : Fin 2) (h : Fin 16) (l : Fin 2048) (d : Fin 64) :
    idx_main_v10 (ix4 b h l d) = ix4 b l h d :=
  funext fun a => Fin.ext (by match a with | ⟨0, _⟩ => rfl | ⟨1, _⟩ => rfl | ⟨2, _⟩ => rfl | ⟨3, _⟩ => rfl)

theorem rs3 (b : Fin 2) (l : Fin 2048) (h : Fin 16) (d : Fin 64) :
    idx_main_v3 (ix4 b l h d) = ix5 b l (0 : Fin 1) h d :=
  funext fun a => Fin.ext (by
    have hb := b.isLt; have hl := l.isLt; have hh := h.isLt; have hd := d.isLt
    match a with
    | ⟨0, _⟩ => show (((b.val * 2048 + l.val) * 16 + h.val) * 64 + d.val) / 2097152 = b.val; omega
    | ⟨1, _⟩ => show (((b.val * 2048 + l.val) * 16 + h.val) * 64 + d.val) / 1024 % 2048 = l.val; omega
    | ⟨2, _⟩ => rfl
    | ⟨3, _⟩ => show (((b.val * 2048 + l.val) * 16 + h.val) * 64 + d.val) / 64 % 16 = h.val; omega
    | ⟨4, _⟩ => show (((b.val * 2048 + l.val) * 16 + h.val) * 64 + d.val) % 64 = d.val; omega)

theorem rs6 (b : Fin 2) (l : Fin 2048) (h : Fin 16) (d : Fin 64) :
    idx_main_v6 (ix4 b l h d) = ix5 b l (0 : Fin 1) h d :=
  funext fun a => Fin.ext (by
    have hb := b.isLt; have hl := l.isLt; have hh := h.isLt; have hd := d.isLt
    match a with
    | ⟨0, _⟩ => show (((b.val * 2048 + l.val) * 16 + h.val) * 64 + d.val) / 2097152 = b.val; omega
    | ⟨1, _⟩ => show (((b.val * 2048 + l.val) * 16 + h.val) * 64 + d.val) / 1024 % 2048 = l.val; omega
    | ⟨2, _⟩ => rfl
    | ⟨3, _⟩ => show (((b.val * 2048 + l.val) * 16 + h.val) * 64 + d.val) / 64 % 16 = h.val; omega
    | ⟨4, _⟩ => show (((b.val * 2048 + l.val) * 16 + h.val) * 64 + d.val) % 64 = d.val; omega)

theorem rs9 (b : Fin 2) (l : Fin 2048) (h : Fin 16) (d : Fin 64) :
    idx_main_v9 (ix4 b l h d) = ix5 b l (0 : Fin 1) h d :=
  funext fun a => Fin.ext (by
    have hb := b.isLt; have hl := l.isLt; have hh := h.isLt; have hd := d.isLt
    match a with
    | ⟨0, _⟩ => show (((b.val * 2048 + l.val) * 16 + h.val) * 64 + d.val) / 2097152 = b.val; omega
    | ⟨1, _⟩ => show (((b.val * 2048 + l.val) * 16 + h.val) * 64 + d.val) / 1024 % 2048 = l.val; omega
    | ⟨2, _⟩ => rfl
    | ⟨3, _⟩ => show (((b.val * 2048 + l.val) * 16 + h.val) * 64 + d.val) / 64 % 16 = h.val; omega
    | ⟨4, _⟩ => show (((b.val * 2048 + l.val) * 16 + h.val) * 64 + d.val) % 64 = d.val; omega)

theorem sl2 (b : Fin 2) (l : Fin 2048) (h : Fin 16) (d : Fin 64) :
    idx_main_v2 (ix5 b l (0 : Fin 1) h d) = ix5 b l (0 : Fin 3) h d :=
  funext fun a => Fin.ext (by match a with | ⟨0, _⟩ => rfl | ⟨1, _⟩ => rfl | ⟨2, _⟩ => rfl | ⟨3, _⟩ => rfl | ⟨4, _⟩ => rfl)

theorem sl5 (b : Fin 2) (l : Fin 2048) (h : Fin 16) (d : Fin 64) :
    idx_main_v5 (ix5 b l (0 : Fin 1) h d) = ix5 b l (1 : Fin 3) h d :=
  funext fun a => Fin.ext (by match a with | ⟨0, _⟩ => rfl | ⟨1, _⟩ => rfl | ⟨2, _⟩ => rfl | ⟨3, _⟩ => rfl | ⟨4, _⟩ => rfl)

theorem sl8 (b : Fin 2) (l : Fin 2048) (h : Fin 16) (d : Fin 64) :
    idx_main_v8 (ix5 b l (0 : Fin 1) h d) = ix5 b l (2 : Fin 3) h d :=
  funext fun a => Fin.ext (by match a with | ⟨0, _⟩ => rfl | ⟨1, _⟩ => rfl | ⟨2, _⟩ => rfl | ⟨3, _⟩ => rfl | ⟨4, _⟩ => rfl)

theorem rs1_0 (b : Fin 2) (l : Fin 2048) (h : Fin 16) (d : Fin 64) (e : Fin 3072)
    (he : e.val = 0 + h.val * 64 + d.val) :
    idx_main_v1 (ix5 b l (0 : Fin 3) h d) = ix3 b l e :=
  funext fun a => Fin.ext (by
    have hb := b.isLt; have hl := l.isLt; have hh := h.isLt; have hd := d.isLt
    match a with
    | ⟨0, _⟩ => show ((((b.val * 2048 + l.val) * 3 + 0) * 16 + h.val) * 64 + d.val) / 6291456 = b.val; omega
    | ⟨1, _⟩ => show ((((b.val * 2048 + l.val) * 3 + 0) * 16 + h.val) * 64 + d.val) / 3072 % 2048 = l.val; omega
    | ⟨2, _⟩ => show ((((b.val * 2048 + l.val) * 3 + 0) * 16 + h.val) * 64 + d.val) % 3072 = e.val; omega)

theorem rs1_1 (b : Fin 2) (l : Fin 2048) (h : Fin 16) (d : Fin 64) (e : Fin 3072)
    (he : e.val = 1024 + h.val * 64 + d.val) :
    idx_main_v1 (ix5 b l (1 : Fin 3) h d) = ix3 b l e :=
  funext fun a => Fin.ext (by
    have hb := b.isLt; have hl := l.isLt; have hh := h.isLt; have hd := d.isLt
    match a with
    | ⟨0, _⟩ => show ((((b.val * 2048 + l.val) * 3 + 1) * 16 + h.val) * 64 + d.val) / 6291456 = b.val; omega
    | ⟨1, _⟩ => show ((((b.val * 2048 + l.val) * 3 + 1) * 16 + h.val) * 64 + d.val) / 3072 % 2048 = l.val; omega
    | ⟨2, _⟩ => show ((((b.val * 2048 + l.val) * 3 + 1) * 16 + h.val) * 64 + d.val) % 3072 = e.val; omega)

theorem rs1_2 (b : Fin 2) (l : Fin 2048) (h : Fin 16) (d : Fin 64) (e : Fin 3072)
    (he : e.val = 2048 + h.val * 64 + d.val) :
    idx_main_v1 (ix5 b l (2 : Fin 3) h d) = ix3 b l e :=
  funext fun a => Fin.ext (by
    have hb := b.isLt; have hl := l.isLt; have hh := h.isLt; have hd := d.isLt
    match a with
    | ⟨0, _⟩ => show ((((b.val * 2048 + l.val) * 3 + 2) * 16 + h.val) * 64 + d.val) / 6291456 = b.val; omega
    | ⟨1, _⟩ => show ((((b.val * 2048 + l.val) * 3 + 2) * 16 + h.val) * 64 + d.val) / 3072 % 2048 = l.val; omega
    | ⟨2, _⟩ => show ((((b.val * 2048 + l.val) * 3 + 2) * 16 + h.val) * 64 + d.val) % 3072 = e.val; omega)

/-! ## The three sections of the fused projection -/

/-- The fused projection at (b, l, e) is row (b, l) of x against row e of the weight. -/
theorem v0_at (x0 : (⟨S2x2048x1024, .f32⟩ : BufTy).Contents (Elt Ideal)) (x1 : (⟨S3072x1024, .f32⟩ : BufTy).Contents (Elt Ideal))
    (b : Fin 2) (l : Fin 2048) (e : Fin 3072) :
    val_main_v0 (F := Ideal) x0 x1 (ix3 b l e) = proj x0 x1 b l e := by
  rw [val_main_v0_apply]
  unfold proj
  refine Finset.sum_congr rfl fun k _ => ?_
  have e1 : lidx_main_v0 (ix3 b l e) k = ix3 b l k :=
    funext fun a => Fin.ext (by match a with | ⟨0, _⟩ => rfl | ⟨1, _⟩ => rfl | ⟨2, _⟩ => rfl)
  have e2 : ridx_main_v0 (ix3 b l e) k = ix2 e k :=
    funext fun a => Fin.ext (by match a with | ⟨0, _⟩ => rfl | ⟨1, _⟩ => rfl)
  rw [e1, e2]

/-- Queries: head h, row l, lane d is column 64 h + d of the first section. -/
theorem q_at (x0 : (⟨S2x2048x1024, .f32⟩ : BufTy).Contents (Elt Ideal)) (x1 : (⟨S3072x1024, .f32⟩ : BufTy).Contents (Elt Ideal))
    (b : Fin 2) (h : Fin 16) (l : Fin 2048) (d : Fin 64) (e : Fin 3072) (he : e.val = 0 + h.val * 64 + d.val) :
    val_main_v4 (F := Ideal) x0 x1 (ix4 b h l d) = proj x0 x1 b l e := by
  rw [val_main_v4_apply, tr4, val_main_v3_apply, rs3, val_main_v2_apply, sl2, val_main_v1_apply,
    rs1_0 b l h d e he, v0_at]

/-- Keys: the same column of the second section. -/
theorem k_at (x0 : (⟨S2x2048x1024, .f32⟩ : BufTy).Contents (Elt Ideal)) (x1 : (⟨S3072x1024, .f32⟩ : BufTy).Contents (Elt Ideal))
    (b : Fin 2) (h : Fin 16) (l : Fin 2048) (d : Fin 64) (e : Fin 3072) (he : e.val = 1024 + h.val * 64 + d.val) :
    val_main_v7 (F := Ideal) x0 x1 (ix4 b h l d) = proj x0 x1 b l e := by
  rw [val_main_v7_apply, tr7, val_main_v6_apply, rs6, val_main_v5_apply, sl5, val_main_v1_apply,
    rs1_1 b l h d e he, v0_at]

/-- Values: the same column of the third section. -/
theorem v_at (x0 : (⟨S2x2048x1024, .f32⟩ : BufTy).Contents (Elt Ideal)) (x1 : (⟨S3072x1024, .f32⟩ : BufTy).Contents (Elt Ideal))
    (b : Fin 2) (h : Fin 16) (l : Fin 2048) (d : Fin 64) (e : Fin 3072) (he : e.val = 2048 + h.val * 64 + d.val) :
    val_main_v10 (F := Ideal) x0 x1 (ix4 b h l d) = proj x0 x1 b l e := by
  rw [val_main_v10_apply, tr10, val_main_v9_apply, rs9, val_main_v8_apply, sl8, val_main_v1_apply,
    rs1_2 b l h d e he, v0_at]

/-! ## One head's softmax row -/

/-- The head that owns column j, and j's lane inside it. -/
def hd (j : Fin 1024) : Fin 16 := ⟨j.val / 64, by have := j.isLt; omega⟩
def ln (j : Fin 1024) : Fin 64 := ⟨j.val % 64, by omega⟩

/-- The word 0xFF800000 is −∞. -/
theorem negInf : Ideal.ofBits .f32 0xFF800000#32 = (⊥ : EReal) := by simp [Ideal.ofBits, Ideal.ieee]

/-- The scaled score of query row l against key row lk inside the head of column j. -/
theorem score_at (x0 : (⟨S2x2048x1024, .f32⟩ : BufTy).Contents (Elt Ideal)) (x1 : (⟨S3072x1024, .f32⟩ : BufTy).Contents (Elt Ideal))
    (b : Fin 2) (j : Fin 1024) (l lk : Fin 2048) :
    val_main_v13 (F := Ideal) x0 x1 (ix4 b (hd j) l lk) = scoreR x0 x1 b j l lk := by
  rw [val_main_v13_apply, val_main_v11_apply, val_main_v12_apply, val_main_cst_apply]
  simp only [Ideal.mulf_def, Ideal.ofBits_def]
  unfold scoreR
  refine congrArg (· * scale) (Finset.sum_congr rfl fun d _ => ?_)
  have e1 : lidx_main_v11 (ix4 b (hd j) l lk) d = ix4 b (hd j) l d :=
    funext fun a => Fin.ext (by match a with | ⟨0, _⟩ => rfl | ⟨1, _⟩ => rfl | ⟨2, _⟩ => rfl | ⟨3, _⟩ => rfl)
  have e2 : ridx_main_v11 (ix4 b (hd j) l lk) d = ix4 b (hd j) lk d :=
    funext fun a => Fin.ext (by match a with | ⟨0, _⟩ => rfl | ⟨1, _⟩ => rfl | ⟨2, _⟩ => rfl | ⟨3, _⟩ => rfl)
  rw [e1, e2,
    q_at x0 x1 b (hd j) l d (sec 0 (headCol j d)) (by show 0 + (j.val / 64 * 64 + d.val) = 0 + j.val / 64 * 64 + d.val; omega),
    k_at x0 x1 b (hd j) lk d (sec 1 (headCol j d)) (by show 1024 + (j.val / 64 * 64 + d.val) = 1024 + j.val / 64 * 64 + d.val; omega)]

/-- The maximum over the key axis, folded from −∞: the row maximum of the scores of (b, h, l). -/
theorem v14_at (x0 : (⟨S2x2048x1024, .f32⟩ : BufTy).Contents (Elt Ideal)) (x1 : (⟨S3072x1024, .f32⟩ : BufTy).Contents (Elt Ideal))
    (b : Fin 2) (h : Fin 16) (l : Fin 2048) :
    val_main_v14 (F := Ideal) x0 x1 (ix3 b h l) = rowMax (fun lk => val_main_v13 (F := Ideal) x0 x1 (ix4 b h l lk)) := by
  have hr : S2x16x2048x2048.Reduces [3] S2x16x2048 := by decide
  unfold val_main_v14
  generalize val_main_v13 (F := Ideal) x0 x1 = y
  rw [Host.reduce_eq_fold_single (FloatOps.maximumf (F := Ideal) (φ := .f32)) y _ reducesTo_S2x16x2048x2048_S2x16x2048_d3 hr h_S_]
  have hb : val_main_cst_0 (F := Ideal) (Shape.Idx.first h_S_) = (⊥ : EReal) := by
    rw [val_main_cst_0_apply]; exact negInf
  have hf : (y ∘ hr.lift (ix3 b h l)) = fun lk : Fin 2048 => y (ix4 b h l lk) :=
    funext fun k => congrArg y (funext fun a => Fin.ext (by match a with | ⟨0, _⟩ => rfl | ⟨1, _⟩ => rfl | ⟨2, _⟩ => rfl | ⟨3, _⟩ => rfl))
  rw [hb]
  unfold rowMax
  exact congrArg (fun f => Finset.fold max (⊥ : EReal) f (Finset.univ : Finset (Fin 2048))) hf

/-- Taking the maximum with −∞ once more changes nothing. -/
theorem v16_at (x0 : (⟨S2x2048x1024, .f32⟩ : BufTy).Contents (Elt Ideal)) (x1 : (⟨S3072x1024, .f32⟩ : BufTy).Contents (Elt Ideal))
    (b : Fin 2) (h : Fin 16) (l : Fin 2048) :
    val_main_v16 (F := Ideal) x0 x1 (ix3 b h l) = rowMax (fun lk => val_main_v13 (F := Ideal) x0 x1 (ix4 b h l lk)) := by
  rw [val_main_v16_apply, val_main_v15_apply, val_main_cst_1_apply, v14_at]
  simp only [Ideal.maximumf_def, Ideal.ofBits_def]
  rw [negInf]
  exact max_eq_right bot_le

/-- The shifted exponential of the row. -/
theorem v20_at (x0 : (⟨S2x2048x1024, .f32⟩ : BufTy).Contents (Elt Ideal)) (x1 : (⟨S3072x1024, .f32⟩ : BufTy).Contents (Elt Ideal))
    (b : Fin 2) (h : Fin 16) (l lk : Fin 2048) :
    val_main_v20 (F := Ideal) x0 x1 (ix4 b h l lk) = rowExp (fun lk => val_main_v13 (F := Ideal) x0 x1 (ix4 b h l lk)) lk := by
  have e1 : idx_main_v17 (idx_main_v18 (ix4 b h l lk)) = ix3 b h l :=
    funext fun a => Fin.ext (by match a with | ⟨0, _⟩ => rfl | ⟨1, _⟩ => rfl | ⟨2, _⟩ => rfl)
  rw [val_main_v20_apply, val_main_v19_apply, val_main_v18_apply, val_main_v17_apply, e1, v16_at]
  simp only [Ideal.hostUnary_exp_def, Ideal.subf_def]
  rfl

/-- The sum of the shifted exponentials, from the zero word. -/
theorem v21_at (x0 : (⟨S2x2048x1024, .f32⟩ : BufTy).Contents (Elt Ideal)) (x1 : (⟨S3072x1024, .f32⟩ : BufTy).Contents (Elt Ideal))
    (b : Fin 2) (h : Fin 16) (l : Fin 2048) :
    val_main_v21 (F := Ideal) x0 x1 (ix3 b h l) = rowDen (fun lk => val_main_v13 (F := Ideal) x0 x1 (ix4 b h l lk)) := by
  rw [val_main_v21_apply, val_main_cst_2_apply]
  simp only [Ideal.ofBits_def, Ideal.ofBits_zero_f32, zero_add]
  unfold rowDen
  refine Finset.sum_congr rfl fun k _ => ?_
  have e1 : idx_main_v21 (ix3 b h l) k = ix4 b h l k :=
    funext fun a => Fin.ext (by match a with | ⟨0, _⟩ => rfl | ⟨1, _⟩ => rfl | ⟨2, _⟩ => rfl | ⟨3, _⟩ => rfl)
  rw [e1, v20_at]

/-- Each exponential divided by the sum. -/
theorem v24_at (x0 : (⟨S2x2048x1024, .f32⟩ : BufTy).Contents (Elt Ideal)) (x1 : (⟨S3072x1024, .f32⟩ : BufTy).Contents (Elt Ideal))
    (b : Fin 2) (h : Fin 16) (l lk : Fin 2048) :
    val_main_v24 (F := Ideal) x0 x1 (ix4 b h l lk)
      = Ideal.div (rowExp (fun lk => val_main_v13 (F := Ideal) x0 x1 (ix4 b h l lk)) lk)
          (rowDen (fun lk => val_main_v13 (F := Ideal) x0 x1 (ix4 b h l lk))) := by
  have e1 : idx_main_v22 (idx_main_v23 (ix4 b h l lk)) = ix3 b h l :=
    funext fun a => Fin.ext (by match a with | ⟨0, _⟩ => rfl | ⟨1, _⟩ => rfl | ⟨2, _⟩ => rfl)
  rw [val_main_v24_apply, val_main_v23_apply, val_main_v22_apply, e1, v21_at, v20_at]
  simp only [Ideal.hostDivf_def]

/-! ## The weights against the values, heads moved back and flattened -/

theorem v27_at (x0 : (⟨S2x2048x1024, .f32⟩ : BufTy).Contents (Elt Ideal)) (x1 : (⟨S3072x1024, .f32⟩ : BufTy).Contents (Elt Ideal))
    (b : Fin 2) (l : Fin 2048) (j : Fin 1024) :
    val_main_v27 (F := Ideal) x0 x1 (ix3 b l j) = attnR x0 x1 b l j := by
  have e27 : idx_main_v27 (ix3 b l j) = ix4 b l (hd j) (ln j) := funext fun a => Fin.ext (by
    have hb := b.isLt; have hl := l.isLt; have hj := j.isLt
    match a with
    | ⟨0, _⟩ => show ((b.val * 2048 + l.val) * 1024 + j.val) / 2097152 = b.val; omega
    | ⟨1, _⟩ => show ((b.val * 2048 + l.val) * 1024 + j.val) / 1024 % 2048 = l.val; omega
    | ⟨2, _⟩ => show ((b.val * 2048 + l.val) * 1024 + j.val) / 64 % 16 = j.val / 64; omega
    | ⟨3, _⟩ => show ((b.val * 2048 + l.val) * 1024 + j.val) % 64 = j.val % 64; omega)
  have e26 : idx_main_v26 (ix4 b l (hd j) (ln j)) = ix4 b (hd j) l (ln j) :=
    funext fun a => Fin.ext (by match a with | ⟨0, _⟩ => rfl | ⟨1, _⟩ => rfl | ⟨2, _⟩ => rfl | ⟨3, _⟩ => rfl)
  have hS : (fun lk => val_main_v13 (F := Ideal) x0 x1 (ix4 b (hd j) l lk)) = scoreR x0 x1 b j l :=
    funext fun lk => score_at x0 x1 b j l lk
  rw [val_main_v27_apply, e27, val_main_v26_apply, e26, val_main_v25_apply]
  unfold attnR
  refine Finset.sum_congr rfl fun lk _ => ?_
  have e1 : lidx_main_v25 (ix4 b (hd j) l (ln j)) lk = ix4 b (hd j) l lk :=
    funext fun a => Fin.ext (by match a with | ⟨0, _⟩ => rfl | ⟨1, _⟩ => rfl | ⟨2, _⟩ => rfl | ⟨3, _⟩ => rfl)
  have e2 : ridx_main_v25 (ix4 b (hd j) l (ln j)) lk = ix4 b (hd j) lk (ln j) :=
    funext fun a => Fin.ext (by match a with | ⟨0, _⟩ => rfl | ⟨1, _⟩ => rfl | ⟨2, _⟩ => rfl | ⟨3, _⟩ => rfl)
  rw [e1, e2, v24_at, hS,
    v_at x0 x1 b (hd j) lk (ln j) (sec 2 j) (by show 2048 + j.val = 2048 + j.val / 64 * 64 + j.val % 64; omega)]

/-! ## The output projection and the bias -/

theorem ref_eq (x0 : (⟨S2x2048x1024, .f32⟩ : BufTy).Contents (Elt Ideal)) (x1 : (⟨S3072x1024, .f32⟩ : BufTy).Contents (Elt Ideal))
    (x2 : (⟨S1024x1024, .f32⟩ : BufTy).Contents (Elt Ideal)) (x3 : (⟨S1024, .f32⟩ : BufTy).Contents (Elt Ideal)) :
    val_main_v31 (F := Ideal) x0 x1 x2 x3 = outRArr x0 x1 x2 x3 := by
  funext i
  obtain ⟨b, l, e, rfl⟩ : ∃ (b : Fin 2) (l : Fin 2048) (e : Fin 1024), i = ix3 b l e := ⟨i 0, i 1, i 2, eq_ix3 i⟩
  show val_main_v31 (F := Ideal) x0 x1 x2 x3 (ix3 b l e) = outR x0 x1 x2 x3 b l e
  have e3 : idx_main_v29 (idx_main_v30 (ix3 b l e)) = ix1 e :=
    funext fun a => Fin.ext (by match a with | ⟨0, _⟩ => rfl)
  rw [val_main_v31_apply, val_main_v28_apply, val_main_v30_apply, val_main_v29_apply, e3]
  simp only [Ideal.addf_def]
  unfold outR
  refine congrArg (· + x3 (ix1 e)) (Finset.sum_congr rfl fun j _ => ?_)
  have e1 : lidx_main_v28 (ix3 b l e) j = ix3 b l j :=
    funext fun a => Fin.ext (by match a with | ⟨0, _⟩ => rfl | ⟨1, _⟩ => rfl | ⟨2, _⟩ => rfl)
  have e2 : ridx_main_v28 (ix3 b l e) j = ix2 e j :=
    funext fun a => Fin.ext (by match a with | ⟨0, _⟩ => rfl | ⟨1, _⟩ => rfl)
  rw [e1, e2, v27_at]

end Cert.ReferenceIdeal.RefValue

end
-- ==== Proof.lean ====
/-
  Multi-head attention in three kernel regions against its jnp reference, over the extended reals.

  The kernel's program projects the activations once into scaled queries, keys and values; computes, per batch,
  head pair and tile of 512 query rows, softmax(q kᵀ) v with the division by the softmax denominator done last;
  and applies the output projection with bias. The reference scales the scores instead of the queries and
  divides each softmax weight. On finite inputs every score is a real number, so both differences are a
  nonnegative real factor moved across a finite sum: the results agree entry by entry.

  The frames of the two kernel programs are the generated ones; the reference's frame is its generated run
  with the result dropped. The idealization rewrote nothing, so `preserves` asks nothing.
-/
import proofs.«428929_j8203387535468_3_alg».proof.Defs
import proofs.«428929_j8203387535468_3_alg».proof.Proof.Gen.Kernel
import proofs.«428929_j8203387535468_3_alg».proof.Proof.Gen.Kernel.Skeleton
import proofs.«428929_j8203387535468_3_alg».proof.Proof.Gen.Kernel.Launch
import proofs.«428929_j8203387535468_3_alg».proof.Proof.Gen.Kernel.Points
import proofs.«428929_j8203387535468_3_alg».proof.Proof.Gen.Kernel.Frame
import proofs.«428929_j8203387535468_3_alg».proof.Proof.Gen.KernelIdeal
import proofs.«428929_j8203387535468_3_alg».proof.Proof.Gen.KernelIdeal.Skeleton
import proofs.«428929_j8203387535468_3_alg».proof.Proof.Gen.KernelIdeal.Launch
import proofs.«428929_j8203387535468_3_alg».proof.Proof.Gen.KernelIdeal.Points
import proofs.«428929_j8203387535468_3_alg».proof.Proof.Gen.KernelIdeal.Frame
import proofs.«428929_j8203387535468_3_alg».proof.Proof.Gen.ReferenceIdeal
import proofs.«428929_j8203387535468_3_alg».proof.Proof.Gen.Pre_finite_inputs
import proofs.«428929_j8203387535468_3_alg».proof.Proof.Gen.ReferenceIdeal.Run
import proofs.«428929_j8203387535468_3_alg».proof.Proof.Gen.ReferenceIdeal.Read
import proofs.«428929_j8203387535468_3_alg».proof.Proof.Spec
import proofs.«428929_j8203387535468_3_alg».proof.Proof.Algebra
import proofs.«428929_j8203387535468_3_alg».proof.Proof.Finite
import proofs.«428929_j8203387535468_3_alg».proof.Proof.KRun
import proofs.«428929_j8203387535468_3_alg».proof.Proof.KChain
import proofs.«428929_j8203387535468_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result at one function of the arguments: the kernel's at `outKArr` (the re-posted
    run, then the fold of @main read back), the reference's at `outRArr` (its generated run, read at an index),
    and the two are equal because the precondition makes every entry of the activations and of the fused weight
    a real number. -/
theorem algebraic : Cert.algebraic_KernelIdeal_ReferenceIdeal := by
  intro m ρ m' ρ' hpre hagree
  refine ⟨fun c => Cert.Attn.outKArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Chain.result_eq m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v31_eq, Cert.ReferenceIdeal.RefValue.ref_eq,
      (hagree c).1, (hagree c).2.1, (hagree c).2.2.1, (hagree c).2.2.2]
    obtain ⟨h0, h1⟩ := Cert.Pre_finite_inputs.Decode.fin_of_pre _ _ _ _ (hpre c)
    funext i
    exact (Cert.Attn.outK_eq_outR _ _ _ _ h0 h1 (i 0) (i 1) (i 2)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
